-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S32x10 .f32) (main_arg10 : FVec F S10 .f32) (main_v33 : IVec S_ 1) : IVec S_ 1 :=
  let main_v34 : FVec F S32x10 .f32 := Host.absf main_arg9
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x10 .f32) (main_arg10 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x100000 : Shape := ⟨2, ![1, 100000]⟩
abbrev S1x102400 : Shape := ⟨2, ![1, 102400]⟩
abbrev S128x100000 : Shape := ⟨2, ![128, 100000]⟩
abbrev S128x102400 : Shape := ⟨2, ![128, 102400]⟩
abbrev S32x128 : Shape := ⟨2, ![32, 128]⟩
abbrev S32x102400 : Shape := ⟨2, ![32, 102400]⟩
abbrev S128x6400 : Shape := ⟨2, ![128, 6400]⟩
abbrev S1x6400 : Shape := ⟨2, ![1, 6400]⟩
abbrev S32x6400 : Shape := ⟨2, ![32, 6400]⟩
abbrev S32x100000 : Shape := ⟨2, ![32, 100000]⟩
abbrev S100000x32 : Shape := ⟨2, ![100000, 32]⟩
abbrev S1700000x32 : Shape := ⟨2, ![1700000, 32]⟩
abbrev S100000x1 : Shape := ⟨2, ![100000, 1]⟩
abbrev S1x32 : Shape := ⟨2, ![1, 32]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 164
  | .vmem => 21
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .i32⟩
  | 19 => ⟨S1700000, .i32⟩
  | 20 => ⟨S_, .i32⟩
  | 21 => ⟨S100000, .i32⟩
  | 22 => ⟨S1700000x1, .i32⟩
  | 23 => ⟨S100000, .i32⟩
  | 24 => ⟨S100000, .f32⟩
  | 25 => ⟨S100000, .f32⟩
  | 26 => ⟨S1x100000, .f32⟩
  | 27 => ⟨S_, .i32⟩
  | 28 => ⟨S_, .f32⟩
  | 29 => ⟨S1x102400, .f32⟩
  | 30 => ⟨S128x100000, .f32⟩
  | 31 => ⟨S_, .i32⟩
  | 32 => ⟨S_, .f32⟩
  | 33 => ⟨S128x102400, .f32⟩
  | 34 => ⟨S32x128, .f32⟩
  | 35 => ⟨S32x102400, .f32⟩
  | 36 => ⟨S32x100000, .f32⟩
  | 37 => ⟨S100000x32, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x32, .f32⟩
  | 47 => ⟨S_, .f32⟩
  | 48 => ⟨S100000x32, .f32⟩
  | 49 => ⟨S1700000x1, .i32⟩
  | 50 => ⟨S100000x32, .f32⟩
  | 51 => ⟨S100000x1, .f32⟩
  | 52 => ⟨S100000x32, .f32⟩
  | 53 => ⟨S100000x32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S32x100000, .f32⟩
  | 61 => ⟨S_, .i32⟩
  | 62 => ⟨S_, .f32⟩
  | 63 => ⟨S32x102400, .f32⟩
  | 64 => ⟨S32x32, .f32⟩
  | 65 => ⟨S32x102400, .f32⟩
  | 66 => ⟨S32x100000, .f32⟩
  | 67 => ⟨S100000x32, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x32, .f32⟩
  | 77 => ⟨S_, .f32⟩
  | 78 => ⟨S100000x32, .f32⟩
  | 79 => ⟨S1700000x1, .i32⟩
  | 80 => ⟨S100000x32, .f32⟩
  | 81 => ⟨S100000x1, .f32⟩
  | 82 => ⟨S100000x32, .f32⟩
  | 83 => ⟨S100000x32, .f32⟩
  | 84 => ⟨S1x32, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S32x100000, .f32⟩
  | 91 => ⟨S_, .i32⟩
  | 92 => ⟨S_, .f32⟩
  | 93 => ⟨S32x102400, .f32⟩
  | 94 => ⟨S32x32, .f32⟩
  | 95 => ⟨S32x102400, .f32⟩
  | 96 => ⟨S32x100000, .f32⟩
  | 97 => ⟨S100000x32, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x32, .f32⟩
  | 107 => ⟨S_, .f32⟩
  | 108 => ⟨S100000x32, .f32⟩
  | 109 => ⟨S1700000x1, .i32⟩
  | 110 => ⟨S100000x32, .f32⟩
  | 111 => ⟨S100000x1, .f32⟩
  | 112 => ⟨S100000x32, .f32⟩
  | 113 => ⟨S100000x32, .f32⟩
  | 114 => ⟨S1x32, .f32⟩
  | 115 => ⟨S100000x32, .f32⟩
  | 116 => ⟨S100000x32, .f32⟩
  | 117 => ⟨S_, .f32⟩
  | 118 => ⟨S100000x32, .f32⟩
  | 119 => ⟨S100000x32, .f32⟩
  | 120 => ⟨S32x100000, .f32⟩
  | 121 => ⟨S_, .i32⟩
  | 122 => ⟨S_, .f32⟩
  | 123 => ⟨S32x102400, .f32⟩
  | 124 => ⟨S32x100000, .f32⟩
  | 125 => ⟨S100000x32, .f32⟩
  | 126 => ⟨S_, .f32⟩
  | 127 => ⟨S128x32, .f32⟩
  | _ => ⟨S100000x128, .f32⟩

abbrev hbmTy0_1 (i : Nat) : BufTy := match i % 128 with
  | 0 => ⟨S100000x1, .i32⟩
  | 1 => ⟨S128x32, .f32⟩
  | 2 => ⟨S_, .f32⟩
  | 3 => ⟨S100000, .f32⟩
  | 4 => ⟨S_, .f32⟩
  | 5 => ⟨S128, .f32⟩
  | 6 => ⟨S100000x1, .i32⟩
  | 7 => ⟨S128, .f32⟩
  | 8 => ⟨S_, .f32⟩
  | 9 => ⟨S128, .f32⟩
  | 10 => ⟨S128, .f32⟩
  | 11 => ⟨S128x1, .f32⟩
  | 12 => ⟨S128x32, .f32⟩
  | 13 => ⟨S128x32, .f32⟩
  | 14 => ⟨S128x10, .f32⟩
  | 15 => ⟨S1x10, .f32⟩
  | 16 => ⟨S128x10, .f32⟩
  | 17 => ⟨S128x10, .f32⟩
  | 18 => ⟨S_, .f32⟩
  | 19 => ⟨S128x10, .f32⟩
  | 20 => ⟨S128x10, .f32⟩
  | 21 => ⟨S_, .f32⟩
  | 22 => ⟨S128, .f32⟩
  | 23 => ⟨S_, .f32⟩
  | 24 => ⟨S128, .f32⟩
  | 25 => ⟨S128, .f32⟩
  | 26 => ⟨S128x1, .f32⟩
  | 27 => ⟨S128x10, .f32⟩
  | 28 => ⟨S128x10, .f32⟩
  | 29 => ⟨S128x10, .f32⟩
  | 30 => ⟨S_, .f32⟩
  | 31 => ⟨S128, .f32⟩
  | 32 => ⟨S128x1, .f32⟩
  | 33 => ⟨S128x1, .f32⟩
  | 34 => ⟨S128x10, .f32⟩
  | 35 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S128x6400, .f32⟩
  | .local _ .vmem, ⟨1, _⟩ => ⟨S128x6400, .f32⟩
  | .local _ .vmem, ⟨2, _⟩ => ⟨S32x128, .f32⟩
  | .local _ .vmem, ⟨3, _⟩ => ⟨S1x6400, .f32⟩
  | .local _ .vmem, ⟨4, _⟩ => ⟨S1x6400, .f32⟩
  | .local _ .vmem, ⟨5, _⟩ => ⟨S32x6400, .f32⟩
  | .local _ .vmem, ⟨6, _⟩ => ⟨S32x6400, .f32⟩
  | .local _ .vmem, ⟨7, _⟩ => ⟨S32x6400, .f32⟩
  | .local _ .vmem, ⟨8, _⟩ => ⟨S32x6400, .f32⟩
  | .local _ .vmem, ⟨9, _⟩ => ⟨S32x32, .f32⟩
  | .local _ .vmem, ⟨10, _⟩ => ⟨S1x6400, .f32⟩
  | .local _ .vmem, ⟨11, _⟩ => ⟨S1x6400, .f32⟩
  | .local _ .vmem, ⟨12, _⟩ => ⟨S32x6400, .f32⟩
  | .local _ .vmem, ⟨13, _⟩ => ⟨S32x6400, .f32⟩
  | .local _ .vmem, ⟨14, _⟩ => ⟨S32x6400, .f32⟩
  | .local _ .vmem, ⟨15, _⟩ => ⟨S32x6400, .f32⟩
  | .local _ .vmem, ⟨16, _⟩ => ⟨S32x32, .f32⟩
  | .local _ .vmem, ⟨17, _⟩ => ⟨S1x6400, .f32⟩
  | .local _ .vmem, ⟨18, _⟩ => ⟨S1x6400, .f32⟩
  | .local _ .vmem, ⟨19, _⟩ => ⟨S32x6400, .f32⟩
  | .local _ .vmem, ⟨20, _⟩ => ⟨S32x6400, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_call1_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_call3_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call4_cst : Ref sig .tc := ⟨.hbm, 87, rfl⟩
abbrev main_call4_v0 : Ref sig .tc := ⟨.hbm, 88, rfl⟩
abbrev main_v60 : Ref sig .tc := ⟨.hbm, 89, rfl⟩
abbrev main_v61 : Ref sig .tc := ⟨.hbm, 90, rfl⟩
abbrev main_c_9 : Ref sig .tc := ⟨.hbm, 91, rfl⟩
abbrev main_call5_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_10 : Ref sig .tc := ⟨.hbm, 98, rfl⟩
abbrev main_v67 : Ref sig .tc := ⟨.hbm, 99, rfl⟩
abbrev main_v68 : Ref sig .tc := ⟨.hbm, 100, rfl⟩
abbrev main_c_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call6_cst : Ref sig .tc := ⟨.hbm, 117, rfl⟩
abbrev main_call6_v0 : Ref sig .tc := ⟨.hbm, 118, rfl⟩
abbrev main_v83 : Ref sig .tc := ⟨.hbm, 119, rfl⟩
abbrev main_v84 : Ref sig .tc := ⟨.hbm, 120, rfl⟩
abbrev main_c_13 : Ref sig .tc := ⟨.hbm, 121, rfl⟩
abbrev main_call7_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_14 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_cst_16 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_call8_cst : Ref sig .tc := ⟨.hbm, 146, rfl⟩
abbrev main_call8_v0 : Ref sig .tc := ⟨.hbm, 147, rfl⟩
abbrev main_v104 : Ref sig .tc := ⟨.hbm, 148, rfl⟩
abbrev main_call9_cst : Ref sig .tc := ⟨.hbm, 149, rfl⟩
abbrev main_call9_v0 : Ref sig .tc := ⟨.hbm, 150, rfl⟩
abbrev main_call9_cst_0 : Ref sig .tc := ⟨.hbm, 151, rfl⟩
abbrev main_call9_v1 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_call9_v5 : Ref sig .tc := ⟨.hbm, 156, rfl⟩
abbrev main_call9_v6 : Ref sig .tc := ⟨.hbm, 157, rfl⟩
abbrev main_call9_cst_1 : Ref sig .tc := ⟨.hbm, 158, rfl⟩
abbrev main_call9_v7 : Ref sig .tc := ⟨.hbm, 159, rfl⟩
abbrev main_call9_v8 : Ref sig .tc := ⟨.hbm, 160, rfl⟩
abbrev main_call9_v9 : Ref sig .tc := ⟨.hbm, 161, rfl⟩
abbrev main_call9_v10 : Ref sig .tc := ⟨.hbm, 162, rfl⟩
abbrev main_v105 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x6400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S32x6400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x6400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x6400 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S1x100000 : S100000.ShapeCasts S1x100000
  pads_S1x100000_S1x102400_000_024000 : S1x100000.Pads (![0, 0] : Fin 2 → Nat) ![0, 2400] ![0, 0] S1x102400
  h_S_ : 0 < S_.numel
  transposes_S100000x128_S128x100000_1_0 : S100000x128.Transposes [1, 0] S128x100000
  pads_S128x100000_S128x102400_000_024000 : S128x100000.Pads (![0, 0] : Fin 2 → Nat) ![0, 2400] ![0, 0] S128x102400
  transposes_S128x32_S32x128_1_0 : S128x32.Transposes [1, 0] S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x6400_S128x6400_0_0 : ∀ a, (![0, 0] : Fin 2 → Nat) a + S128x6400.size a ≤ S128x6400.size a
  h_S128x6400 : 0 < S128x6400.numel
  shapeCasts_S128x6400_S128x6400 : S128x6400.ShapeCasts S128x6400
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S32x6400 : S1x6400.Broadcasts S32x6400
  inb_S32x6400_S32x6400_0_0 : ∀ a, (![0, 0] : Fin 2 → Nat) a + S32x6400.size a ≤ S32x6400.size a
  h_S32x6400 : 0 < S32x6400.numel
  slices_S32x102400_S32x100000_0_0 : S32x102400.Slices ![0, 0] S32x100000
  transposes_S32x100000_S100000x32_1_0 : S32x100000.Transposes [1, 0] S100000x32
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S100000x32_S32x100000_1_0 : S100000x32.Transposes [1, 0] S32x100000
  pads_S32x100000_S32x102400_000_024000 : S32x100000.Pads (![0, 0] : Fin 2 → Nat) ![0, 2400] ![0, 0] S32x102400
  transposes_S32x32_S32x32_1_0 : S32x32.Transposes [1, 0] S32x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32x6400_S32x6400 : S32x6400.ShapeCasts S32x6400
  bcast_S_S128x32 : S_.BroadcastsInDim S128x32 (![] : Fin 0 → Fin S128x32.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  reducesTo_S128x10_S128_d1 : S128x10.ReducesTo [1] S128
  bcast_S128x1_S128x10_0_1 : S128x1.BroadcastsInDim S128x10 (![0, 1] : Fin 2 → Fin S128x10.rank)
  scatter_S100000_S1700000x1_S1700000_n_0_0_1_wf : ScatterDims.WF S100000 S1700000x1 S1700000 [] [0] [0] 1
  dot_S32x128_S128x6400_S32x6400_1_0_0_1_n_n_wf : DotDims.WF S32x128 S128x6400 S32x6400 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S32x32_S32x6400_S32x6400_1_0_0_1_n_n_wf : DotDims.WF S32x32 S32x6400 S32x6400 [1] [0] [0] [1] [] []
  scatter_S128x32_S100000x1_S100000x32_1_0_0_1_wf : ScatterDims.WF S128x32 S100000x1 S100000x32 [1] [0] [0] 1
  scatter_S128_S100000x1_S100000_n_0_0_1_wf : ScatterDims.WF S128 S100000x1 S100000 [] [0] [0] 1
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x6400.size a ≤ S128x102400.size a
  hwx0_0 : ∀ i : grid0.Coords, EltTy.bits .f32 = 32 ∨ (Rect.block (s := S128x102400) S128x6400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6400.size a ≤ S1x102400.size a
  hwx0_2 : ∀ i : grid0.Coords, EltTy.bits .f32 = 32 ∨ (Rect.block (s := S1x102400) S1x6400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x6400.size a ≤ S32x102400.size a
  hwx0_3 : ∀ i : grid0.Coords, EltTy.bits .f32 = 32 ∨ (Rect.block (s := S32x102400) S32x6400.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x6400.size a ≤ S32x102400.size a
  hwx1_0 : ∀ i : grid1.Coords, EltTy.bits .f32 = 32 ∨ (Rect.block (s := S32x102400) S32x6400.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6400.size a ≤ S1x102400.size a
  hwx1_2 : ∀ i : grid1.Coords, EltTy.bits .f32 = 32 ∨ (Rect.block (s := S1x102400) S1x6400.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x6400.size a ≤ S32x102400.size a
  hwx1_3 : ∀ i : grid1.Coords, EltTy.bits .f32 = 32 ∨ (Rect.block (s := S32x102400) S32x6400.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x6400.size a ≤ S32x102400.size a
  hwx2_0 : ∀ i : grid2.Coords, EltTy.bits .f32 = 32 ∨ (Rect.block (s := S32x102400) S32x6400.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x6400.size a ≤ S1x102400.size a
  hwx2_2 : ∀ i : grid2.Coords, EltTy.bits .f32 = 32 ∨ (Rect.block (s := S1x102400) S1x6400.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x6400.size a ≤ S32x102400.size a
  hwx2_3 : ∀ i : grid2.Coords, EltTy.bits .f32 = 32 ∨ (Rect.block (s := S32x102400) S32x6400.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S32x128_S128x6400_S32x6400_1_0_0_1_n_n : DotDims S32x128 S128x6400 S32x6400 where
  lhsContracting := [1]
  rhsContracting := [0]
  lhsNonContracting := [0]
  rhsNonContracting := [1]
  lhsBatch := []
  rhsBatch := []
  wf := dot_S32x128_S128x6400_S32x6400_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S32x32_S32x6400_S32x6400_1_0_0_1_n_n : DotDims S32x32 S32x6400 S32x6400 where
  lhsContracting := [1]
  rhsContracting := [0]
  lhsNonContracting := [0]
  rhsNonContracting := [1]
  lhsBatch := []
  rhsBatch := []
  wf := dot_S32x32_S32x6400_S32x6400_1_0_0_1_n_n_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_v16) S128x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x6400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x6400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S32x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x6400.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S32x6400.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S32x6400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x6400.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S32x6400.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x32, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x32, .f32⟩
  | 54 => ⟨S1700000x1, .f32⟩
  | 55 => ⟨S1700000x32, .f32⟩
  | 56 => ⟨S1700000x32, .f32⟩
  | 57 => ⟨S_, .f32⟩
  | 58 => ⟨S100000x32, .f32⟩
  | 59 => ⟨S1700000x1, .i32⟩
  | 60 => ⟨S100000x32, .f32⟩
  | 61 => ⟨S1x32, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S100000x32, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x32, .f32⟩
  | 77 => ⟨S1700000x1, .f32⟩
  | 78 => ⟨S1700000x32, .f32⟩
  | 79 => ⟨S1700000x32, .f32⟩
  | 80 => ⟨S_, .f32⟩
  | 81 => ⟨S100000x32, .f32⟩
  | 82 => ⟨S1700000x1, .i32⟩
  | 83 => ⟨S100000x32, .f32⟩
  | 84 => ⟨S1x32, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S100000x32, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x32, .f32⟩
  | 100 => ⟨S1700000x1, .f32⟩
  | 101 => ⟨S1700000x32, .f32⟩
  | 102 => ⟨S1700000x32, .f32⟩
  | 103 => ⟨S_, .f32⟩
  | 104 => ⟨S100000x32, .f32⟩
  | 105 => ⟨S1700000x1, .i32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S_, .f32⟩
  | 114 => ⟨S128x32, .f32⟩
  | 115 => ⟨S100000x1, .i32⟩
  | 116 => ⟨S128x32, .f32⟩
  | 117 => ⟨S_, .f32⟩
  | 118 => ⟨S100000, .f32⟩
  | 119 => ⟨S_, .f32⟩
  | 120 => ⟨S128, .f32⟩
  | 121 => ⟨S100000x1, .i32⟩
  | 122 => ⟨S128, .f32⟩
  | 123 => ⟨S_, .f32⟩
  | 124 => ⟨S128, .f32⟩
  | 125 => ⟨S128, .f32⟩
  | 126 => ⟨S128x1, .f32⟩
  | 127 => ⟨S128x32, .f32⟩
  | _ => ⟨S100000x128, .f32⟩

abbrev hbmTy0_1 (i : Nat) : BufTy := match i % 128 with
  | 0 => ⟨S128x32, .f32⟩
  | 1 => ⟨S128x10, .f32⟩
  | 2 => ⟨S1x10, .f32⟩
  | 3 => ⟨S128x10, .f32⟩
  | 4 => ⟨S128x10, .f32⟩
  | 5 => ⟨S_, .f32⟩
  | 6 => ⟨S128x10, .f32⟩
  | 7 => ⟨S128x10, .f32⟩
  | 8 => ⟨S_, .f32⟩
  | 9 => ⟨S128, .f32⟩
  | 10 => ⟨S_, .f32⟩
  | 11 => ⟨S128, .f32⟩
  | 12 => ⟨S128, .f32⟩
  | 13 => ⟨S128x1, .f32⟩
  | 14 => ⟨S128x10, .f32⟩
  | 15 => ⟨S128x10, .f32⟩
  | 16 => ⟨S128x10, .f32⟩
  | 17 => ⟨S_, .f32⟩
  | 18 => ⟨S128, .f32⟩
  | 19 => ⟨S128x1, .f32⟩
  | 20 => ⟨S128x1, .f32⟩
  | 21 => ⟨S128x10, .f32⟩
  | 22 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call3_cst : Ref sig .tc := ⟨.hbm, 133, rfl⟩
abbrev main_call3_v0 : Ref sig .tc := ⟨.hbm, 134, rfl⟩
abbrev main_v97 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v98 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S128x32 : S_.BroadcastsInDim S128x32 (![] : Fin 0 → Fin S128x32.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  scatter_S128x32_S100000x1_S100000x32_1_0_0_1_wf : ScatterDims.WF S128x32 S100000x1 S100000x32 [1] [0] [0] 1
  scatter_S128_S100000x1_S100000_n_0_0_1_wf : ScatterDims.WF S128 S100000x1 S100000 [] [0] [0] 1
  dot_S128x32_S32x10_S128x10_1_0_0_1_n_n_wf : DotDims.WF S128x32 S32x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.Spec.lean ====
/-
  A three-layer graph convolution, mean pooling and a classifier head, as pure functions of the program's arrays.

  Both programs take the edge list with one self-loop per node appended (`src`, `dst` : 1,700,000 words), count each
  node's in-degree `deg`, and set `dinv = deg^(-1/2)`. One layer maps node features `h` to
  `relu (A h W + b)` with `A[d, s] = dinv[d] · dinv[s]` summed over the edges `s → d`. The two programs differ only in
  where the two factors of `A` are applied:

  * the kernel scales row `s` of `h W` by `dinv[s]` inside the dense transform (computed transposed, on node columns
    padded to 102,400), gathers and accumulates the scaled rows, and scales the accumulated row `d` by `dinv[d]`;
  * the reference gathers rows of `h W`, scales edge `e`'s row by `dinv[src e] · dinv[dst e]`, and accumulates.

  This file names each side's pieces; the files beside it show that the pieces agree.
-/
import proofs.«427937_j30253749633693_4_alg».proof.Proof.Gen.KernelIdeal
import proofs.«427937_j30253749633693_4_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx

/-! ## The kernel's pieces (over the kernel program's shape and dimension records) -/

namespace K
open Cert.KernelIdeal Cert.KernelIdeal.Facts₀ Cert.KernelIdeal.Facts

/-- The edges' sources: row 0 of the edge list, then one self-loop per node. -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The edges' destinations: row 1 of the edge list, then one self-loop per node. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The first layer's weight, transposed. -/
def wT128 (w : FVec Ideal S128x32 .f32) : FVec Ideal S32x128 .f32 := transpose S32x128 [1, 0] w transposes_S128x32_S32x128_1_0

/-- A later layer's weight, transposed. -/
def wT32 (w : FVec Ideal S32x32 .f32) : FVec Ideal S32x32 .f32 := transpose S32x32 [1, 0] w transposes_S32x32_S32x32_1_0

/-- An index word read the way array indexing reads it: a negative word counts from the end. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A vector of index words as a column of one-word index vectors. -/
def col (v : IVec S1700000 32) : IVec S1700000x1 32 := broadcastInDim S1700000x1 ![0] bcast_S1700000_S1700000x1_0 v

/-- The in-degree of every node, counted in 32-bit words. -/
def deg (dst : IVec S1700000 32) : IVec S100000 32 :=
  Host.scatter scatter_S100000_S1700000x1_S1700000_n_0_0_1 IntOp.addi
    (broadcastInDim S100000 ![] bcast_S_S100000 (constantI S_ 32 0#32)) (col dst)
    (broadcastInDim S1700000 ![] bcast_S_S1700000 (constantI S_ 32 1#32))

/-- `deg^(-1/2)`. -/
def dinv (dst : IVec S1700000 32) : FVec Ideal S100000 .f32 := Host.rsqrt (sitofp .f32 (deg dst))

/-- `dinv` as one row, padded with zeros to 102,400 columns. -/
def dinvRow (dinv : FVec Ideal S100000 .f32) : FVec Ideal S1x102400 .f32 :=
  pad S1x102400 ![0, 0] ![0, 2400] ![0, 0] (shapeCast S1x100000 dinv shapeCasts_S100000_S1x100000)
    (sitofp (F := Ideal) .f32 (constantI S_ 32 0#32)) pads_S1x100000_S1x102400_000_024000 h_S_

/-- The input features transposed, node columns padded with zeros to 102,400. -/
def padT128 (x : FVec Ideal S100000x128 .f32) : FVec Ideal S128x102400 .f32 :=
  pad S128x102400 ![0, 0] ![0, 2400] ![0, 0] (transpose S128x100000 [1, 0] x transposes_S100000x128_S128x100000_1_0)
    (sitofp (F := Ideal) .f32 (constantI S_ 32 0#32)) pads_S128x100000_S128x102400_000_024000 h_S_

/-- Hidden features transposed, node columns padded with zeros to 102,400. -/
def padT32 (h : FVec Ideal S100000x32 .f32) : FVec Ideal S32x102400 .f32 :=
  pad S32x102400 ![0, 0] ![0, 2400] ![0, 0] (transpose S32x100000 [1, 0] h transposes_S100000x32_S32x100000_1_0)
    (sitofp (F := Ideal) .f32 (constantI S_ 32 0#32)) pads_S32x100000_S32x102400_000_024000 h_S_

/-- The first 100,000 columns of a transposed result, transposed back to one row per node. -/
def unT (r : FVec Ideal S32x102400 .f32) : FVec Ideal S100000x32 .f32 :=
  transpose S100000x32 [1, 0] (extractStridedSlice S32x100000 ![0, 0] r slices_S32x102400_S32x100000_0_0)
    transposes_S32x100000_S100000x32_1_0

/-- Rows of `p` gathered along the edges' sources, accumulated at their destinations, each accumulated row scaled by its
    node's `dinv`. -/
def agg (p : FVec Ideal S100000x32 .f32) (src dst : IVec S1700000 32) (dinv : FVec Ideal S100000 .f32) :
    FVec Ideal S100000x32 .f32 :=
  mulf (Host.scatterAdd scatter_S100000x32_S1700000x1_S1700000x32_1_0_0_1
      (broadcastInDim S100000x32 ![] bcast_S_S100000x32 (constant S_ .f32 0x00000000#32)) (col dst)
      (Host.gather gather_S100000x32_S1700000x1_S1700000x32_1_0_n_n_0_1_132 p (col (wrap src))))
    (broadcastInDim S100000x32 ![0, 1] bcast_S100000x1_S100000x32_0_1
      (broadcastInDim S100000x1 ![0] bcast_S100000_S100000x1_0 dinv))

/-- Bias, then the rectifier. -/
def biasRelu (a : FVec Ideal S100000x32 .f32) (b : FVec Ideal S32 .f32) : FVec Ideal S100000x32 .f32 :=
  maximumf (addf a (broadcastInDim S100000x32 ![0, 1] bcast_S1x32_S100000x32_0_1 (broadcastInDim S1x32 ![1] bcast_S32_S1x32_1 b)))
    (broadcastInDim S100000x32 ![] bcast_S_S100000x32 (constant S_ .f32 0x00000000#32))

end K

/-! ## The dense transform's result, entry by entry -/

/-- Entry `(o, j)` of the transposed dense transform: row `o` of the transposed weight against column `j` of the transposed
    features, times column `j` of the scale row. -/
def denseT {k : Nat} (a : (⟨2, ![k, 102400]⟩ : Shape).Idx → EReal) (w : (⟨2, ![32, k]⟩ : Shape).Idx → EReal)
    (d : (⟨2, ![1, 102400]⟩ : Shape).Idx → EReal) : (⟨2, ![32, 102400]⟩ : Shape).Idx → EReal :=
  fun i => (∑ c : Fin k, w (ix2 (n0 := 32) (i 0) c) * a (ix2 c (n1 := 102400) (i 1))) * d (ix2 (n0 := 1) 0 (n1 := 102400) (i 1))

theorem denseT_apply {k : Nat} (a : (⟨2, ![k, 102400]⟩ : Shape).Idx → EReal) (w : (⟨2, ![32, k]⟩ : Shape).Idx → EReal)
    (d : (⟨2, ![1, 102400]⟩ : Shape).Idx → EReal) (o : Fin 32) (j : Fin 102400) :
    denseT a w d (ix2 o j) = (∑ c : Fin k, w (ix2 o c) * a (ix2 c j)) * d (ix2 0 j) := rfl

/-! ## The reference's pieces (over the reference program's shape and dimension records) -/

namespace R
open Cert.ReferenceIdeal Cert.ReferenceIdeal.Facts₀ Cert.ReferenceIdeal.Facts

def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

def col (v : IVec S1700000 32) : IVec S1700000x1 32 := broadcastInDim S1700000x1 ![0] bcast_S1700000_S1700000x1_0 v

/-- The in-degree of every node, summed as floats. -/
def deg (dst : IVec S1700000 32) : FVec Ideal S100000 .f32 :=
  Host.scatterAdd scatter_S100000_S1700000x1_S1700000_n_0_0_1
    (broadcastInDim S100000 ![] bcast_S_S100000 (constant S_ .f32 0x00000000#32)) (col dst)
    (broadcastInDim S1700000 ![] bcast_S_S1700000 (constant S_ .f32 0x3F800000#32))

def dinv (dst : IVec S1700000 32) : FVec Ideal S100000 .f32 := Host.rsqrt (deg dst)

/-- Edge `e`'s weight `dinv[src e] · dinv[dst e]`. -/
def norm (src dst : IVec S1700000 32) (dinv : FVec Ideal S100000 .f32) : FVec Ideal S1700000 .f32 :=
  mulf (Host.gather gather_S100000_S1700000x1_S1700000_n_0_n_n_0_1_1 dinv (col (wrap src)))
    (Host.gather gather_S100000_S1700000x1_S1700000_n_0_n_n_0_1_1 dinv (col (wrap dst)))

/-- Rows of `q` gathered along the edges' sources, scaled by the edge weights, accumulated at the destinations. -/
def agg (q : FVec Ideal S100000x32 .f32) (src dst : IVec S1700000 32) (dinv : FVec Ideal S100000 .f32) :
    FVec Ideal S100000x32 .f32 :=
  Host.scatterAdd scatter_S100000x32_S1700000x1_S1700000x32_1_0_0_1
    (broadcastInDim S100000x32 ![] bcast_S_S100000x32 (constant S_ .f32 0x00000000#32)) (col dst)
    (mulf (Host.gather gather_S100000x32_S1700000x1_S1700000x32_1_0_n_n_0_1_132 q (col (wrap src)))
      (broadcastInDim S1700000x32 ![0, 1] bcast_S1700000x1_S1700000x32_0_1
        (broadcastInDim S1700000x1 ![0] bcast_S1700000_S1700000x1_0 (norm src dst dinv))))

def biasRelu (a : FVec Ideal S100000x32 .f32) (b : FVec Ideal S32 .f32) : FVec Ideal S100000x32 .f32 :=
  maximumf (addf a (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- Features times a 128-row weight. -/
def dot128 (x : FVec Ideal S100000x128 .f32) (w : FVec Ideal S128x32 .f32) : FVec Ideal S100000x32 .f32 :=
  Host.dotGeneral dot_S100000x128_S128x32_S100000x32_1_0_0_1_n_n none x w

/-- Features times a 32-row weight. -/
def dot32 (h : FVec Ideal S100000x32 .f32) (w : FVec Ideal S32x32 .f32) : FVec Ideal S100000x32 .f32 :=
  Host.dotGeneral dot_S100000x32_S32x32_S100000x32_1_0_0_1_n_n none h w

end R

end Cert.Gcn

end
-- ==== Proof.Whole.lean ====
/-
  The two programs' results as whole functions of the arguments.

  After its three layers each program pools the node features per graph (a sum of the rows of each graph over the
  number of its nodes, at least one), applies the classifier, the rectifier, and a row-wise log-softmax. That tail is
  the same text in both programs; the kernel reaches it through one more transpose-pad-slice-transpose of the last
  layer's features, which changes nothing.
-/
import proofs.«427937_j30253749633693_4_alg».proof.Proof.Spec

noncomputable section

namespace Cert.Gcn

open Idealize.ShloMosaic Idealize.ShloMosaic.ValueIdx

namespace K
open Cert.KernelIdeal Cert.KernelIdeal.Facts₀ Cert.KernelIdeal.Facts

/-- One layer from the dense transform's (transposed, padded) result: read it back per node, aggregate, bias, rectify. -/
def layerOut (r : FVec Ideal S32x102400 .f32) (src dst : IVec S1700000 32) (dinv : FVec Ideal S100000 .f32)
    (b : FVec Ideal S32 .f32) : FVec Ideal S100000x32 .f32 :=
  biasRelu (agg (unT r) src dst dinv) b

/-- Mean pooling per graph (each graph's rows summed, over its node count or one), then the classifier. -/
def logits (h : FVec Ideal S100000x32 .f32) (batch : IVec S100000 32) (wl : FVec Ideal S32x10 .f32) (bl : FVec Ideal S10 .f32) :
    FVec Ideal S128x10 .f32 :=
  let sums := Host.scatterAdd scatter_S128x32_S100000x1_S100000x32_1_0_0_1
    (broadcastInDim S128x32 ![] bcast_S_S128x32 (constant S_ .f32 0x00000000#32))
    (broadcastInDim S100000x1 ![0] bcast_S100000_S100000x1_0 batch) h
  let cnts := Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))
  let pooled := Host.divf sums (broadcastInDim S128x32 ![0, 1] bcast_S128x1_S128x32_0_1
    (broadcastInDim S128x1 ![0] bcast_S128_S128x1_0
      (maximumf cnts (broadcastInDim S128 ![] bcast_S_S128 (constant S_ .f32 0x3F800000#32)))))
  addf (Host.dotGeneral dot_S128x32_S32x10_S128x10_1_0_0_1_n_n none pooled wl)
    (broadcastInDim S128x10 ![0, 1] bcast_S1x10_S128x10_0_1 (broadcastInDim S1x10 ![1] bcast_S10_S1x10_1 bl))

/-- The row-wise log-softmax: each row less its maximum, less the logarithm of the sum of the exponentials of that. -/
def logSoftmax (z : FVec Ideal S128x10 .f32) : FVec Ideal S128x10 .f32 :=
  let top := maximumf (broadcastInDim S128 ![] bcast_S_S128 (constant S_ .f32 0xFF800000#32))
    (Host.reduce FloatOps.maximumf z (constant S_ .f32 0xFF800000#32) reducesTo_S128x10_S128_d1 h_S_)
  let shifted := subf z (broadcastInDim S128x10 ![0, 1] bcast_S128x1_S128x10_0_1
    (broadcastInDim S128x1 ![0] bcast_S128_S128x1_0 top))
  subf shifted (broadcastInDim S128x10 ![0, 1] bcast_S128x1_S128x10_0_1
    (Host.log (broadcastInDim S128x1 ![0] bcast_S128_S128x1_0
      (Host.reduceAdd (Host.exp shifted) (constant S_ .f32 0x00000000#32) reducesTo_S128x10_S128_d1 h_S_))))

/-- Mean pooling per graph, the classifier, the rectifier, and the row-wise log-softmax. -/
def tail (h : FVec Ideal S100000x32 .f32) (batch : IVec S100000 32) (wl : FVec Ideal S32x10 .f32) (bl : FVec Ideal S10 .f32) :
    FVec Ideal S128x10 .f32 :=
  logSoftmax (maximumf (logits h batch wl bl) (broadcastInDim S128x10 ![] bcast_S_S128x10 (constant S_ .f32 0x00000000#32)))

/-- The kernel program's result from its arguments, the three dense transforms at their entry-by-entry value. -/
def result (x : FVec Ideal S100000x128 .f32) (ei : IVec S2x1600000 32) (batch : IVec S100000 32)
    (w0 : FVec Ideal S128x32 .f32) (b0 : FVec Ideal S32 .f32) (w1 : FVec Ideal S32x32 .f32) (b1 : FVec Ideal S32 .f32)
    (w2 : FVec Ideal S32x32 .f32) (b2 : FVec Ideal S32 .f32) (wl : FVec Ideal S32x10 .f32) (bl : FVec Ideal S10 .f32) :
    FVec Ideal S128x10 .f32 :=
  let src := srcOf ei
  let dst := dstOf ei
  let dv := dinv dst
  let h1 := layerOut (denseT (k := 128) (padT128 x) (wT128 w0) (dinvRow dv)) src dst dv b0
  let h2 := layerOut (denseT (k := 32) (padT32 h1) (wT32 w1) (dinvRow dv)) src dst dv b1
  let h3 := layerOut (denseT (k := 32) (padT32 h2) (wT32 w2) (dinvRow dv)) src dst dv b2
  tail (unT (padT32 h3)) batch wl bl

end K

namespace R
open Cert.ReferenceIdeal Cert.ReferenceIdeal.Facts₀ Cert.ReferenceIdeal.Facts

def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- Mean pooling per graph (each graph's rows summed, over its node count or one), then the classifier. -/
def logits (h : FVec Ideal S100000x32 .f32) (batch : IVec S100000 32) (wl : FVec Ideal S32x10 .f32) (bl : FVec Ideal S10 .f32) :
    FVec Ideal S128x10 .f32 :=
  let sums := Host.scatterAdd scatter_S128x32_S100000x1_S100000x32_1_0_0_1
    (broadcastInDim S128x32 ![] bcast_S_S128x32 (constant S_ .f32 0x00000000#32))
    (broadcastInDim S100000x1 ![0] bcast_S100000_S100000x1_0 batch) h
  let cnts := Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))
  let pooled := Host.divf sums (broadcastInDim S128x32 ![0, 1] bcast_S128x1_S128x32_0_1
    (broadcastInDim S128x1 ![0] bcast_S128_S128x1_0
      (maximumf cnts (broadcastInDim S128 ![] bcast_S_S128 (constant S_ .f32 0x3F800000#32)))))
  addf (Host.dotGeneral dot_S128x32_S32x10_S128x10_1_0_0_1_n_n none pooled wl)
    (broadcastInDim S128x10 ![0, 1] bcast_S1x10_S128x10_0_1 (broadcastInDim S1x10 ![1] bcast_S10_S1x10_1 bl))

/-- The row-wise log-softmax: each row less its maximum, less the logarithm of the sum of the exponentials of that. -/
def logSoftmax (z : FVec Ideal S128x10 .f32) : FVec Ideal S128x10 .f32 :=
  let top := maximumf (broadcastInDim S128 ![] bcast_S_S128 (constant S_ .f32 0xFF800000#32))
    (Host.reduce FloatOps.maximumf z (constant S_ .f32 0xFF800000#32) reducesTo_S128x10_S128_d1 h_S_)
  let shifted := subf z (broadcastInDim S128x10 ![0, 1] bcast_S128x1_S128x10_0_1
    (broadcastInDim S128x1 ![0] bcast_S128_S128x1_0 top))
  subf shifted (broadcastInDim S128x10 ![0, 1] bcast_S128x1_S128x10_0_1
    (Host.log (broadcastInDim S128x1 ![0] bcast_S128_S128x1_0
      (Host.reduceAdd (Host.exp shifted) (constant S_ .f32 0x00000000#32) reducesTo_S128x10_S128_d1 h_S_))))

/-- Mean pooling per graph, the classifier, the rectifier, and the row-wise log-softmax. -/
def tail (h : FVec Ideal S100000x32 .f32) (batch : IVec S100000 32) (wl : FVec Ideal S32x10 .f32) (bl : FVec Ideal S10 .f32) :
    FVec Ideal S128x10 .f32 :=
  logSoftmax (maximumf (logits h batch wl bl) (broadcastInDim S128x10 ![] bcast_S_S128x10 (constant S_ .f32 0x00000000#32)))

/-- The reference program's result from its arguments. -/
def result (x : FVec Ideal S100000x128 .f32) (ei : IVec S2x1600000 32) (batch : IVec S100000 32)
    (w0 : FVec Ideal S128x32 .f32) (b0 : FVec Ideal S32 .f32) (w1 : FVec Ideal S32x32 .f32) (b1 : FVec Ideal S32 .f32)
    (w2 : FVec Ideal S32x32 .f32) (b2 : FVec Ideal S32 .f32) (wl : FVec Ideal S32x10 .f32) (bl : FVec Ideal S10 .f32) :
    FVec Ideal S128x10 .f32 :=
  let src := srcOf ei
  let dst := dstOf ei
  let dv := dinv dst
  let h1 := biasRelu (agg (dot128 x w0) src dst dv) b0
  let h2 := biasRelu (agg (dot32 h1 w1) src dst dv) b1
  let h3 := biasRelu (agg (dot32 h2 w2) src dst dv) b2
  tail h3 batch wl bl

end R

/-- The two programs' edge lists and tails are the same functions. -/
theorem srcOf_eq : @K.srcOf = @R.srcOf := rfl
theorem dstOf_eq : @K.dstOf = @R.dstOf := rfl
theorem tail_eq : @K.tail = @R.tail := rfl
theorem biasRelu_eq : @K.biasRelu = @R.biasRelu := rfl

end Cert.Gcn

end
-- ==== Proof.KHost0.lean ====
/-
  The kernel program's host operations before its first dense-transform region, read at the buffers the region and
  the later operations use: the padded transposes of the input features and the first weight, the edges' sources and
  destinations with the self-loops appended, and `deg^(-1/2)` as a vector and as a padded row. The other arguments are
  untouched.
-/
import proofs.«427937_j30253749633693_4_alg».proof.Proof.Gen.KernelIdeal.Frame
import proofs.«427937_j30253749633693_4_alg».proof.Proof.Whole
import Idealize.ShloMosaic.Lib.StableHlo.Run

set_option maxRecDepth 16384

noncomputable section

namespace Cert.Gcn.KHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- Unfold the boundaries of one stretch family down to the boundary before it, and read each operation's result. -/
macro "reads0" : tactic => `(tactic| (dsimp only [W5, W4, W3, W2, W1, hostOps0, hostOps0_1, hostOps0_2, hostOps0_3, hostOps0_4]; after_results_simp))

/-! ## Before the first region -/

theorem w5_v16 : W5 m ρ c (Proc.devRef .tc main_v16) = K.padT128 (m ((c.tc : Thread nD τ).loc main_arg0)) := by
  reads0; rfl
theorem w5_v17 : W5 m ρ c (Proc.devRef .tc main_v17) = K.wT128 (m ((c.tc : Thread nD τ).loc main_arg3)) := by
  reads0; rfl
theorem w5_v3 : W5 m ρ c (Proc.devRef .tc main_v3) = K.srcOf (m ((c.tc : Thread nD τ).loc main_arg1)) := by
  reads0; rfl
theorem w5_v6 : W5 m ρ c (Proc.devRef .tc main_v6) = K.dstOf (m ((c.tc : Thread nD τ).loc main_arg1)) := by
  reads0; rfl
theorem w5_v12 : W5 m ρ c (Proc.devRef .tc main_v12) = K.dinv (K.dstOf (m ((c.tc : Thread nD τ).loc main_arg1))) := by
  reads0; rfl
theorem w5_v14 : W5 m ρ c (Proc.devRef .tc main_v14) = K.dinvRow (K.dinv (K.dstOf (m ((c.tc : Thread nD τ).loc main_arg1)))) := by
  reads0; rfl

theorem w5_arg2 : W5 m ρ c (Proc.devRef .tc main_arg2) = m ((c.tc : Thread nD τ).loc main_arg2) := by reads0
theorem w5_arg4 : W5 m ρ c (Proc.devRef .tc main_arg4) = m ((c.tc : Thread nD τ).loc main_arg4) := by reads0
theorem w5_arg5 : W5 m ρ c (Proc.devRef .tc main_arg5) = m ((c.tc : Thread nD τ).loc main_arg5) := by reads0
theorem w5_arg6 : W5 m ρ c (Proc.devRef .tc main_arg6) = m ((c.tc : Thread nD τ).loc main_arg6) := by reads0
theorem w5_arg7 : W5 m ρ c (Proc.devRef .tc main_arg7) = m ((c.tc : Thread nD τ).loc main_arg7) := by reads0
theorem w5_arg8 : W5 m ρ c (Proc.devRef .tc main_arg8) = m ((c.tc : Thread nD τ).loc main_arg8) := by reads0
theorem w5_arg9 : W5 m ρ c (Proc.devRef .tc main_arg9) = m ((c.tc : Thread nD τ).loc main_arg9) := by reads0
theorem w5_arg10 : W5 m ρ c (Proc.devRef .tc main_arg10) = m ((c.tc : Thread nD τ).loc main_arg10) := by reads0

end Cert.Gcn.KHost

end
-- ==== Proof.KHost1.lean ====
/-
  The kernel program's host operations between its first and second region: the first region's output array read back
  per node, aggregated along the edges, biased and rectified (`K.layerOut`), then transposed and padded for the second
  region, beside the second weight transposed; every buffer the later operations still use is untouched.
-/
import proofs.«427937_j30253749633693_4_alg».proof.Proof.Gen.KernelIdeal.Frame
import proofs.«427937_j30253749633693_4_alg».proof.Proof.Whole
import Idealize.ShloMosaic.Lib.StableHlo.Run

set_option maxRecDepth 16384

noncomputable section

namespace Cert.Gcn.KHost
namespace S1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The operations read from ANY contents `V` before them -/

section Generic
variable (V : Valuation τ sig (Elt Ideal))

/-- The aggregated and biased features, before the rectifier. -/
theorem sum_of : after hostOps1 V (Proc.devRef .tc main_v36)
    = (addf (K.agg (K.unT (V (Proc.devRef .tc main_v18))) (V (Proc.devRef .tc main_v3)) (V (Proc.devRef .tc main_v6)) (V (Proc.devRef .tc main_v12)))
        (broadcastInDim S100000x32 ![0, 1] bcast_S1x32_S100000x32_0_1 (broadcastInDim S1x32 ![1] bcast_S32_S1x32_1 (V (Proc.devRef .tc main_arg4)))) : FVec Ideal S100000x32 .f32) := by
  dsimp only [hostOps1]; after_results_simp; rfl

/-- The rectifier. -/
theorem relu_of : after hostOps1_1 V (Proc.devRef .tc main_v37)
    = (maximumf (V (Proc.devRef .tc main_v36)) (broadcastInDim S100000x32 ![] bcast_S_S100000x32 (constant S_ .f32 0x00000000#32)) : FVec Ideal S100000x32 .f32) := by
  dsimp only [hostOps1_1]; after_results_simp; rfl

/-- Transposed and padded for the next region. -/
theorem pad_of : after hostOps1_3 (after hostOps1_2 V) (Proc.devRef .tc main_v39)
    = (pad S32x102400 ![0, 0] ![0, 2400] ![0, 0] (transpose S32x100000 [1, 0] (V (Proc.devRef .tc main_v37)) transposes_S100000x32_S32x100000_1_0)
        (sitofp (F := Ideal) .f32 (constantI S_ 32 0#32)) pads_S32x100000_S32x102400_000_024000 h_S_ : FVec Ideal S32x102400 .f32) := by
  dsimp only [hostOps1_2, hostOps1_3]; after_results_simp; rfl

theorem pad_kept : after hostOps1_4 V (Proc.devRef .tc main_v39) = V (Proc.devRef .tc main_v39) := by
  dsimp only [hostOps1_4]; after_results_simp

/-- The next region's weight window. -/
theorem weight_of : after hostOps1_4 (after hostOps1_3 (after hostOps1_2 (after hostOps1_1 (after hostOps1 V)))) (Proc.devRef .tc main_v40) = K.wT32 (V (Proc.devRef .tc main_arg5)) := by
  dsimp only [hostOps1, hostOps1_1, hostOps1_2, hostOps1_3, hostOps1_4]; after_results_simp; rfl

/-! Buffers the later operations still read are untouched. -/
theorem kept_v14 : after hostOps1_4 (after hostOps1_3 (after hostOps1_2 (after hostOps1_1 (after hostOps1 V)))) (Proc.devRef .tc main_v14) = V (Proc.devRef .tc main_v14) := by
  dsimp only [hostOps1, hostOps1_1, hostOps1_2, hostOps1_3, hostOps1_4]; after_results_simp
theorem kept_v3 : after hostOps1_4 (after hostOps1_3 (after hostOps1_2 (after hostOps1_1 (after hostOps1 V)))) (Proc.devRef .tc main_v3) = V (Proc.devRef .tc main_v3) := by
  dsimp only [hostOps1, hostOps1_1, hostOps1_2, hostOps1_3, hostOps1_4]; after_results_simp
theorem kept_v6 : after hostOps1_4 (after hostOps1_3 (after hostOps1_2 (after hostOps1_1 (after hostOps1 V)))) (Proc.devRef .tc main_v6) = V (Proc.devRef .tc main_v6) := by
  dsimp only [hostOps1, hostOps1_1, hostOps1_2, hostOps1_3, hostOps1_4]; after_results_simp
theorem kept_v12 : after hostOps1_4 (after hostOps1_3 (after hostOps1_2 (after hostOps1_1 (after hostOps1 V)))) (Proc.devRef .tc main_v12) = V (Proc.devRef .tc main_v12) := by
  dsimp only [hostOps1, hostOps1_1, hostOps1_2, hostOps1_3, hostOps1_4]; after_results_simp
theorem kept_arg2 : after hostOps1_4 (after hostOps1_3 (after hostOps1_2 (after hostOps1_1 (after hostOps1 V)))) (Proc.devRef .tc main_arg2) = V (Proc.devRef .tc main_arg2) := by
  dsimp only [hostOps1, hostOps1_1, hostOps1_2, hostOps1_3, hostOps1_4]; after_results_simp
theorem kept_arg6 : after hostOps1_4 (after hostOps1_3 (after hostOps1_2 (after hostOps1_1 (after hostOps1 V)))) (Proc.devRef .tc main_arg6) = V (Proc.devRef .tc main_arg6) := by
  dsimp only [hostOps1, hostOps1_1, hostOps1_2, hostOps1_3, hostOps1_4]; after_results_simp
theorem kept_arg7 : after hostOps1_4 (after hostOps1_3 (after hostOps1_2 (after hostOps1_1 (after hostOps1 V)))) (Proc.devRef .tc main_arg7) = V (Proc.devRef .tc main_arg7) := by
  dsimp only [hostOps1, hostOps1_1, hostOps1_2, hostOps1_3, hostOps1_4]; after_results_simp
theorem kept_arg8 : after hostOps1_4 (after hostOps1_3 (after hostOps1_2 (after hostOps1_1 (after hostOps1 V)))) (Proc.devRef .tc main_arg8) = V (Proc.devRef .tc main_arg8) := by
  dsimp only [hostOps1, hostOps1_1, hostOps1_2, hostOps1_3, hostOps1_4]; after_results_simp
theorem kept_arg9 : after hostOps1_4 (after hostOps1_3 (after hostOps1_2 (after hostOps1_1 (after hostOps1 V)))) (Proc.devRef .tc main_arg9) = V (Proc.devRef .tc main_arg9) := by
  dsimp only [hostOps1, hostOps1_1, hostOps1_2, hostOps1_3, hostOps1_4]; after_results_simp
theorem kept_arg10 : after hostOps1_4 (after hostOps1_3 (after hostOps1_2 (after hostOps1_1 (after hostOps1 V)))) (Proc.devRef .tc main_arg10) = V (Proc.devRef .tc main_arg10) := by
  dsimp only [hostOps1, hostOps1_1, hostOps1_2, hostOps1_3, hostOps1_4]; after_results_simp

/-- Folding the operations into the layer's name. -/
theorem fold_layer (r : FVec Ideal S32x102400 .f32) (src dst : IVec S1700000 32) (dv : FVec Ideal S100000 .f32) (b : FVec Ideal S32 .f32) :
    (pad S32x102400 ![0, 0] ![0, 2400] ![0, 0] (transpose S32x100000 [1, 0]
        (maximumf (addf (K.agg (K.unT r) src dst dv)
            (broadcastInDim S100000x32 ![0, 1] bcast_S1x32_S100000x32_0_1 (broadcastInDim S1x32 ![1] bcast_S32_S1x32_1 b)))
          (broadcastInDim S100000x32 ![] bcast_S_S100000x32 (constant S_ .f32 0x00000000#32)))
        transposes_S100000x32_S32x100000_1_0)
      (sitofp (F := Ideal) .f32 (constantI S_ 32 0#32)) pads_S32x100000_S32x102400_000_024000 h_S_ : FVec Ideal S32x102400 .f32)
      = K.padT32 (K.layerOut r src dst dv b) := rfl

end Generic

/-! ## At the program's boundaries -/

/-- The next region's feature window: `K.layerOut` of this region's output, transposed and padded. -/
theorem w11_feat : W11 m ρ c (Proc.devRef .tc main_v39)
    = K.padT32 (K.layerOut (W6 m ρ c (Proc.devRef .tc main_v18)) (W6 m ρ c (Proc.devRef .tc main_v3)) (W6 m ρ c (Proc.devRef .tc main_v6))
        (W6 m ρ c (Proc.devRef .tc main_v12)) (W6 m ρ c (Proc.devRef .tc main_arg4))) := by
  refine (pad_kept (W10 m ρ c)).trans ?_
  refine (pad_of (W8 m ρ c)).trans ?_
  rw [show W8 m ρ c (Proc.devRef .tc main_v37) = _ from relu_of (W7 m ρ c), show W7 m ρ c (Proc.devRef .tc main_v36) = _ from sum_of (W6 m ρ c)]
  exact fold_layer _ _ _ _ _

theorem w11_weight : W11 m ρ c (Proc.devRef .tc main_v40) = K.wT32 (W6 m ρ c (Proc.devRef .tc main_arg5)) := weight_of (W6 m ρ c)
theorem w11_v14 : W11 m ρ c (Proc.devRef .tc main_v14) = W6 m ρ c (Proc.devRef .tc main_v14) := kept_v14 (W6 m ρ c)
theorem w11_v3 : W11 m ρ c (Proc.devRef .tc main_v3) = W6 m ρ c (Proc.devRef .tc main_v3) := kept_v3 (W6 m ρ c)
theorem w11_v6 : W11 m ρ c (Proc.devRef .tc main_v6) = W6 m ρ c (Proc.devRef .tc main_v6) := kept_v6 (W6 m ρ c)
theorem w11_v12 : W11 m ρ c (Proc.devRef .tc main_v12) = W6 m ρ c (Proc.devRef .tc main_v12) := kept_v12 (W6 m ρ c)
theorem w11_arg2 : W11 m ρ c (Proc.devRef .tc main_arg2) = W6 m ρ c (Proc.devRef .tc main_arg2) := kept_arg2 (W6 m ρ c)
theorem w11_arg6 : W11 m ρ c (Proc.devRef .tc main_arg6) = W6 m ρ c (Proc.devRef .tc main_arg6) := kept_arg6 (W6 m ρ c)
theorem w11_arg7 : W11 m ρ c (Proc.devRef .tc main_arg7) = W6 m ρ c (Proc.devRef .tc main_arg7) := kept_arg7 (W6 m ρ c)
theorem w11_arg8 : W11 m ρ c (Proc.devRef .tc main_arg8) = W6 m ρ c (Proc.devRef .tc main_arg8) := kept_arg8 (W6 m ρ c)
theorem w11_arg9 : W11 m ρ c (Proc.devRef .tc main_arg9) = W6 m ρ c (Proc.devRef .tc main_arg9) := kept_arg9 (W6 m ρ c)
theorem w11_arg10 : W11 m ρ c (Proc.devRef .tc main_arg10) = W6 m ρ c (Proc.devRef .tc main_arg10) := kept_arg10 (W6 m ρ c)

end S1

end Cert.Gcn.KHost

end
-- ==== Proof.KHost2.lean ====
/-
  The kernel program's host operations between its second and third region: the same reading as between the first two,
  one layer on.
-/
import proofs.«427937_j30253749633693_4_alg».proof.Proof.Gen.KernelIdeal.Frame
import proofs.«427937_j30253749633693_4_alg».proof.Proof.Whole
import Idealize.ShloMosaic.Lib.StableHlo.Run

set_option maxRecDepth 16384

noncomputable section

namespace Cert.Gcn.KHost
namespace S2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The operations read from ANY contents `V` before them -/

section Generic
variable (V : Valuation τ sig (Elt Ideal))

/-- The aggregated and biased features, before the rectifier. -/
theorem sum_of : after hostOps2 V (Proc.devRef .tc main_v59)
    = (addf (K.agg (K.unT (V (Proc.devRef .tc main_v41))) (V (Proc.devRef .tc main_v3)) (V (Proc.devRef .tc main_v6)) (V (Proc.devRef .tc main_v12)))
        (broadcastInDim S100000x32 ![0, 1] bcast_S1x32_S100000x32_0_1 (broadcastInDim S1x32 ![1] bcast_S32_S1x32_1 (V (Proc.devRef .tc main_arg6)))) : FVec Ideal S100000x32 .f32) := by
  dsimp only [hostOps2]; after_results_simp; rfl

/-- The rectifier. -/
theorem relu_of : after hostOps2_1 V (Proc.devRef .tc main_v60)
    = (maximumf (V (Proc.devRef .tc main_v59)) (broadcastInDim S100000x32 ![] bcast_S_S100000x32 (constant S_ .f32 0x00000000#32)) : FVec Ideal S100000x32 .f32) := by
  dsimp only [hostOps2_1]; after_results_simp; rfl

/-- Transposed and padded for the next region. -/
theorem pad_of : after hostOps2_3 (after hostOps2_2 V) (Proc.devRef .tc main_v62)
    = (pad S32x102400 ![0, 0] ![0, 2400] ![0, 0] (transpose S32x100000 [1, 0] (V (Proc.devRef .tc main_v60)) transposes_S100000x32_S32x100000_1_0)
        (sitofp (F := Ideal) .f32 (constantI S_ 32 0#32)) pads_S32x100000_S32x102400_000_024000 h_S_ : FVec Ideal S32x102400 .f32) := by
  dsimp only [hostOps2_2, hostOps2_3]; after_results_simp; rfl

theorem pad_kept : after hostOps2_4 V (Proc.devRef .tc main_v62) = V (Proc.devRef .tc main_v62) := by
  dsimp only [hostOps2_4]; after_results_simp

/-- The next region's weight window. -/
theorem weight_of : after hostOps2_4 (after hostOps2_3 (after hostOps2_2 (after hostOps2_1 (after hostOps2 V)))) (Proc.devRef .tc main_v63) = K.wT32 (V (Proc.devRef .tc main_arg7)) := by
  dsimp only [hostOps2, hostOps2_1, hostOps2_2, hostOps2_3, hostOps2_4]; after_results_simp; rfl

/-! Buffers the later operations still read are untouched. -/
theorem kept_v14 : after hostOps2_4 (after hostOps2_3 (after hostOps2_2 (after hostOps2_1 (after hostOps2 V)))) (Proc.devRef .tc main_v14) = V (Proc.devRef .tc main_v14) := by
  dsimp only [hostOps2, hostOps2_1, hostOps2_2, hostOps2_3, hostOps2_4]; after_results_simp
theorem kept_v3 : after hostOps2_4 (after hostOps2_3 (after hostOps2_2 (after hostOps2_1 (after hostOps2 V)))) (Proc.devRef .tc main_v3) = V (Proc.devRef .tc main_v3) := by
  dsimp only [hostOps2, hostOps2_1, hostOps2_2, hostOps2_3, hostOps2_4]; after_results_simp
theorem kept_v6 : after hostOps2_4 (after hostOps2_3 (after hostOps2_2 (after hostOps2_1 (after hostOps2 V)))) (Proc.devRef .tc main_v6) = V (Proc.devRef .tc main_v6) := by
  dsimp only [hostOps2, hostOps2_1, hostOps2_2, hostOps2_3, hostOps2_4]; after_results_simp
theorem kept_v12 : after hostOps2_4 (after hostOps2_3 (after hostOps2_2 (after hostOps2_1 (after hostOps2 V)))) (Proc.devRef .tc main_v12) = V (Proc.devRef .tc main_v12) := by
  dsimp only [hostOps2, hostOps2_1, hostOps2_2, hostOps2_3, hostOps2_4]; after_results_simp
theorem kept_arg2 : after hostOps2_4 (after hostOps2_3 (after hostOps2_2 (after hostOps2_1 (after hostOps2 V)))) (Proc.devRef .tc main_arg2) = V (Proc.devRef .tc main_arg2) := by
  dsimp only [hostOps2, hostOps2_1, hostOps2_2, hostOps2_3, hostOps2_4]; after_results_simp
theorem kept_arg8 : after hostOps2_4 (after hostOps2_3 (after hostOps2_2 (after hostOps2_1 (after hostOps2 V)))) (Proc.devRef .tc main_arg8) = V (Proc.devRef .tc main_arg8) := by
  dsimp only [hostOps2, hostOps2_1, hostOps2_2, hostOps2_3, hostOps2_4]; after_results_simp
theorem kept_arg9 : after hostOps2_4 (after hostOps2_3 (after hostOps2_2 (after hostOps2_1 (after hostOps2 V)))) (Proc.devRef .tc main_arg9) = V (Proc.devRef .tc main_arg9) := by
  dsimp only [hostOps2, hostOps2_1, hostOps2_2, hostOps2_3, hostOps2_4]; after_results_simp
theorem kept_arg10 : after hostOps2_4 (after hostOps2_3 (after hostOps2_2 (after hostOps2_1 (after hostOps2 V)))) (Proc.devRef .tc main_arg10) = V (Proc.devRef .tc main_arg10) := by
  dsimp only [hostOps2, hostOps2_1, hostOps2_2, hostOps2_3, hostOps2_4]; after_results_simp

/-- Folding the operations into the layer's name. -/
theorem fold_layer (r : FVec Ideal S32x102400 .f32) (src dst : IVec S1700000 32) (dv : FVec Ideal S100000 .f32) (b : FVec Ideal S32 .f32) :
    (pad S32x102400 ![0, 0] ![0, 2400] ![0, 0] (transpose S32x100000 [1, 0]
        (maximumf (addf (K.agg (K.unT r) src dst dv)
            (broadcastInDim S100000x32 ![0, 1] bcast_S1x32_S100000x32_0_1 (broadcastInDim S1x32 ![1] bcast_S32_S1x32_1 b)))
          (broadcastInDim S100000x32 ![] bcast_S_S100000x32 (constant S_ .f32 0x00000000#32)))
        transposes_S100000x32_S32x100000_1_0)
      (sitofp (F := Ideal) .f32 (constantI S_ 32 0#32)) pads_S32x100000_S32x102400_000_024000 h_S_ : FVec Ideal S32x102400 .f32)
      = K.padT32 (K.layerOut r src dst dv b) := rfl

end Generic

/-! ## At the program's boundaries -/

/-- The next region's feature window: `K.layerOut` of this region's output, transposed and padded. -/
theorem w17_feat : W17 m ρ c (Proc.devRef .tc main_v62)
    = K.padT32 (K.layerOut (W12 m ρ c (Proc.devRef .tc main_v41)) (W12 m ρ c (Proc.devRef .tc main_v3)) (W12 m ρ c (Proc.devRef .tc main_v6))
        (W12 m ρ c (Proc.devRef .tc main_v12)) (W12 m ρ c (Proc.devRef .tc main_arg6))) := by
  refine (pad_kept (W16 m ρ c)).trans ?_
  refine (pad_of (W14 m ρ c)).trans ?_
  rw [show W14 m ρ c (Proc.devRef .tc main_v60) = _ from relu_of (W13 m ρ c), show W13 m ρ c (Proc.devRef .tc main_v59) = _ from sum_of (W12 m ρ c)]
  exact fold_layer _ _ _ _ _

theorem w17_weight : W17 m ρ c (Proc.devRef .tc main_v63) = K.wT32 (W12 m ρ c (Proc.devRef .tc main_arg7)) := weight_of (W12 m ρ c)
theorem w17_v14 : W17 m ρ c (Proc.devRef .tc main_v14) = W12 m ρ c (Proc.devRef .tc main_v14) := kept_v14 (W12 m ρ c)
theorem w17_v3 : W17 m ρ c (Proc.devRef .tc main_v3) = W12 m ρ c (Proc.devRef .tc main_v3) := kept_v3 (W12 m ρ c)
theorem w17_v6 : W17 m ρ c (Proc.devRef .tc main_v6) = W12 m ρ c (Proc.devRef .tc main_v6) := kept_v6 (W12 m ρ c)
theorem w17_v12 : W17 m ρ c (Proc.devRef .tc main_v12) = W12 m ρ c (Proc.devRef .tc main_v12) := kept_v12 (W12 m ρ c)
theorem w17_arg2 : W17 m ρ c (Proc.devRef .tc main_arg2) = W12 m ρ c (Proc.devRef .tc main_arg2) := kept_arg2 (W12 m ρ c)
theorem w17_arg8 : W17 m ρ c (Proc.devRef .tc main_arg8) = W12 m ρ c (Proc.devRef .tc main_arg8) := kept_arg8 (W12 m ρ c)
theorem w17_arg9 : W17 m ρ c (Proc.devRef .tc main_arg9) = W12 m ρ c (Proc.devRef .tc main_arg9) := kept_arg9 (W12 m ρ c)
theorem w17_arg10 : W17 m ρ c (Proc.devRef .tc main_arg10) = W12 m ρ c (Proc.devRef .tc main_arg10) := kept_arg10 (W12 m ρ c)

end S2

end Cert.Gcn.KHost

end
-- ==== Proof.KHost3.lean ====
/-
  The kernel program's host operations after its third region: the third layer's features (`K.layerOut` of the region's
  output array), transposed, padded, cut and transposed back, then pooled per graph, classified and normalised
  (`K.tail`).
-/
import proofs.«427937_j30253749633693_4_alg».proof.Proof.Gen.KernelIdeal.Frame
import proofs.«427937_j30253749633693_4_alg».proof.Proof.Whole
import Idealize.ShloMosaic.Lib.StableHlo.Run

set_option maxRecDepth 16384

noncomputable section

namespace Cert.Gcn.KHost
namespace S3

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The operations read from ANY contents `V` before them -/

section Generic
variable (V : Valuation τ sig (Elt Ideal))

/-- The aggregated and biased features, before the rectifier. -/
theorem sum_of : after hostOps3 V (Proc.devRef .tc main_v82)
    = (addf (K.agg (K.unT (V (Proc.devRef .tc main_v64))) (V (Proc.devRef .tc main_v3)) (V (Proc.devRef .tc main_v6)) (V (Proc.devRef .tc main_v12)))
        (broadcastInDim S100000x32 ![0, 1] bcast_S1x32_S100000x32_0_1 (broadcastInDim S1x32 ![1] bcast_S32_S1x32_1 (V (Proc.devRef .tc main_arg8)))) : FVec Ideal S100000x32 .f32) := by
  dsimp only [hostOps3]; after_results_simp; rfl

/-- The rectifier. -/
theorem relu_of : after hostOps3_1 V (Proc.devRef .tc main_v83)
    = (maximumf (V (Proc.devRef .tc main_v82)) (broadcastInDim S100000x32 ![] bcast_S_S100000x32 (constant S_ .f32 0x00000000#32)) : FVec Ideal S100000x32 .f32) := by
  dsimp only [hostOps3_1]; after_results_simp; rfl

/-- Transposed and padded once more. -/
theorem pad_of : after hostOps3_3 (after hostOps3_2 V) (Proc.devRef .tc main_v85)
    = (pad S32x102400 ![0, 0] ![0, 2400] ![0, 0] (transpose S32x100000 [1, 0] (V (Proc.devRef .tc main_v83)) transposes_S100000x32_S32x100000_1_0)
        (sitofp (F := Ideal) .f32 (constantI S_ 32 0#32)) pads_S32x100000_S32x102400_000_024000 h_S_ : FVec Ideal S32x102400 .f32) := by
  dsimp only [hostOps3_2, hostOps3_3]; after_results_simp; rfl

theorem kept_arg2 : after hostOps3_3 (after hostOps3_2 (after hostOps3_1 (after hostOps3 V))) (Proc.devRef .tc main_arg2) = V (Proc.devRef .tc main_arg2) := by
  dsimp only [hostOps3, hostOps3_1, hostOps3_2, hostOps3_3]; after_results_simp
theorem kept_arg9 : after hostOps3_3 (after hostOps3_2 (after hostOps3_1 (after hostOps3 V))) (Proc.devRef .tc main_arg9) = V (Proc.devRef .tc main_arg9) := by
  dsimp only [hostOps3, hostOps3_1, hostOps3_2, hostOps3_3]; after_results_simp
theorem kept_arg10 : after hostOps3_3 (after hostOps3_2 (after hostOps3_1 (after hostOps3 V))) (Proc.devRef .tc main_arg10) = V (Proc.devRef .tc main_arg10) := by
  dsimp only [hostOps3, hostOps3_1, hostOps3_2, hostOps3_3]; after_results_simp

/-- Cut and transposed back, pooled per graph and classified. -/
theorem logits_of : after hostOps3_4 V (Proc.devRef .tc main_v103)
    = K.logits (K.unT (V (Proc.devRef .tc main_v85))) (V (Proc.devRef .tc main_arg2)) (V (Proc.devRef .tc main_arg9)) (V (Proc.devRef .tc main_arg10)) := by
  dsimp only [hostOps3_4]; after_results_simp; rfl

/-- The rectifier on the logits. -/
theorem relu10_of : after hostOps3_5 V (Proc.devRef .tc main_v104)
    = (maximumf (V (Proc.devRef .tc main_v103)) (broadcastInDim S128x10 ![] bcast_S_S128x10 (constant S_ .f32 0x00000000#32)) : FVec Ideal S128x10 .f32) := by
  dsimp only [hostOps3_5]; after_results_simp; rfl

/-- The row-wise log-softmax. -/
theorem ls_of : after hostOps3_6 V (Proc.devRef .tc main_v105) = K.logSoftmax (V (Proc.devRef .tc main_v104)) := by
  dsimp only [hostOps3_6]; after_results_simp; rfl

/-- Folding the operations into the layer's and the tail's names. -/
theorem fold_tail (r : FVec Ideal S32x102400 .f32) (src dst : IVec S1700000 32) (dv : FVec Ideal S100000 .f32) (b : FVec Ideal S32 .f32)
    (batch : IVec S100000 32) (wl : FVec Ideal S32x10 .f32) (bl : FVec Ideal S10 .f32) :
    K.logSoftmax (maximumf (K.logits (K.unT
        (pad S32x102400 ![0, 0] ![0, 2400] ![0, 0] (transpose S32x100000 [1, 0]
            (maximumf (addf (K.agg (K.unT r) src dst dv)
                (broadcastInDim S100000x32 ![0, 1] bcast_S1x32_S100000x32_0_1 (broadcastInDim S1x32 ![1] bcast_S32_S1x32_1 b)))
              (broadcastInDim S100000x32 ![] bcast_S_S100000x32 (constant S_ .f32 0x00000000#32)))
            transposes_S100000x32_S32x100000_1_0)
          (sitofp (F := Ideal) .f32 (constantI S_ 32 0#32)) pads_S32x100000_S32x102400_000_024000 h_S_)) batch wl bl)
      (broadcastInDim S128x10 ![] bcast_S_S128x10 (constant S_ .f32 0x00000000#32)))
      = K.tail (K.unT (K.padT32 (K.layerOut r src dst dv b))) batch wl bl := rfl

end Generic

/-! ## At the program's boundaries -/

/-- The result buffer from the third region's output array and the buffers the earlier operations left. -/
theorem w25_v105 : W25 m ρ c (Proc.devRef .tc main_v105)
    = K.tail (K.unT (K.padT32 (K.layerOut (W18 m ρ c (Proc.devRef .tc main_v64)) (W18 m ρ c (Proc.devRef .tc main_v3)) (W18 m ρ c (Proc.devRef .tc main_v6))
        (W18 m ρ c (Proc.devRef .tc main_v12)) (W18 m ρ c (Proc.devRef .tc main_arg8))))) (W18 m ρ c (Proc.devRef .tc main_arg2)) (W18 m ρ c (Proc.devRef .tc main_arg9))
        (W18 m ρ c (Proc.devRef .tc main_arg10)) := by
  refine (ls_of (W24 m ρ c)).trans ?_
  rw [show W24 m ρ c (Proc.devRef .tc main_v104) = _ from relu10_of (W23 m ρ c),
    show W23 m ρ c (Proc.devRef .tc main_v103) = _ from logits_of (W22 m ρ c),
    show W22 m ρ c (Proc.devRef .tc main_v85) = _ from pad_of (W20 m ρ c),
    show W20 m ρ c (Proc.devRef .tc main_v83) = _ from relu_of (W19 m ρ c),
    show W19 m ρ c (Proc.devRef .tc main_v82) = _ from sum_of (W18 m ρ c),
    show W22 m ρ c (Proc.devRef .tc main_arg2) = _ from kept_arg2 (W18 m ρ c),
    show W22 m ρ c (Proc.devRef .tc main_arg9) = _ from kept_arg9 (W18 m ρ c),
    show W22 m ρ c (Proc.devRef .tc main_arg10) = _ from kept_arg10 (W18 m ρ c)]
  exact fold_tail _ _ _ _ _ _ _ _

end S3

end Cert.Gcn.KHost

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.Region0.lean ====
/-
  The dense transform's region 0, read as one array: after the pipeline has run over its sixteen column blocks, entry
  `(o, j)` of the output array is row `o` of the weight window against column `j` of the feature window, times column
  `j` of the scale window.

  The steps. (1) The body's stored value at `(o, q)` of a block: a product accumulated into zero is the sum over the
  contraction index, and the scale row is repeated down the 32 rows. (2) Grid point `t` stages columns
  `6400 t … 6400 t + 6399` of the feature and scale arrays and the whole weight array, and writes back the same columns
  of the output. (3) So what point `t` writes back is block `t` of the whole-array function, and since column `j` lies in
  block `j / 6400`, the sixteen blocks cover the array.
-/
import proofs.«427937_j30253749633693_4_alg».proof.Proof.Gen.KernelIdeal.Frame
import proofs.«427937_j30253749633693_4_alg».proof.Proof.Spec
import proofs.«427937_j30253749633693_4_alg».proof.Proof.LibPlainDot
import Idealize.ShloMosaic.Lib.Pipeline.Value
import Idealize.ShloMosaic.PureOps.Ideal.Laws

set_option maxRecDepth 16384

noncomputable section

namespace Cert.Gcn.Region0

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets of a whole-buffer rectangle are zero on both axes. -/
theorem hz : (![0, 0] : Fin 2 → Nat) = fun _ => 0 := funext fun a => by
  match a with
  | ⟨0, _⟩ => rfl
  | ⟨1, _⟩ => rfl

/-- The body's stored value at row `o`, column `q` of a block: the weight block's row `o` against the feature block's
    column `q`, times the scale block's column `q`. -/
theorem pay_apply (x1 : Vec Ideal S32x128 .f32) (x0 : Vec Ideal S128x6400 .f32) (x2 : Vec Ideal S1x6400 .f32)
    (o : Fin 32) (q : Fin 6400) :
    (k0_pay1 (F := Ideal) x1 x0 x2 : S32x6400.Idx → EReal) (ix2 o q)
      = (∑ k : Fin 128, (x1 : S32x128.Idx → EReal) (ix2 o k) * (x0 : S128x6400.Idx → EReal) (ix2 k q))
          * (x2 : S1x6400.Idx → EReal) (ix2 0 q) := by
  unfold k0_pay1
  simp only [shapeCast_self]
  rw [mulf_apply]
  refine congrArg₂ (· * ·) (PlainDot.matmul_zero_apply 32 128 6400 none x1 x0 o q) ?_
  exact broadcastTo_apply x2 broadcasts_S1x6400_S32x6400 (ix2 o q) (ix2 0 q) (fun a => by
    match a with
    | ⟨0, _⟩ => rfl
    | ⟨1, _⟩ => rfl)

/-- A block whose entries are those of the arrays at the columns `j q` holds, after the body, the whole-array function
    at those columns. -/
theorem block_apply (a : S128x102400.Idx → EReal) (w : S32x128.Idx → EReal) (d : S1x102400.Idx → EReal)
    (x0 : Vec Ideal S128x6400 .f32) (x1 : Vec Ideal S32x128 .f32) (x2 : Vec Ideal S1x6400 .f32)
    (j : Fin 6400 → Fin 102400)
    (h0 : ∀ (k : Fin 128) (q : Fin 6400), (x0 : S128x6400.Idx → EReal) (ix2 k q) = a (ix2 k (j q)))
    (h1 : ∀ (o : Fin 32) (k : Fin 128), (x1 : S32x128.Idx → EReal) (ix2 o k) = w (ix2 o k))
    (h2 : ∀ q : Fin 6400, (x2 : S1x6400.Idx → EReal) (ix2 0 q) = d (ix2 0 (j q)))
    (o : Fin 32) (q : Fin 6400) :
    (k0_pay1 (F := Ideal) x1 x0 x2 : S32x6400.Idx → EReal) (ix2 o q) = denseT (k := 128) a w d (ix2 o (j q)) := by
  rw [pay_apply, denseT_apply, h2]
  exact congrArg (· * d (ix2 0 (j q))) (Finset.sum_congr rfl fun k _ => by rw [h0, h1])

/-- The same, as a function of the block's index. -/
theorem block_fn (a : S128x102400.Idx → EReal) (w : S32x128.Idx → EReal) (d : S1x102400.Idx → EReal)
    (x0 : Vec Ideal S128x6400 .f32) (x1 : Vec Ideal S32x128 .f32) (x2 : Vec Ideal S1x6400 .f32)
    (j : Fin 6400 → Fin 102400)
    (h0 : ∀ (k : Fin 128) (q : Fin 6400), (x0 : S128x6400.Idx → EReal) (ix2 k q) = a (ix2 k (j q)))
    (h1 : ∀ (o : Fin 32) (k : Fin 128), (x1 : S32x128.Idx → EReal) (ix2 o k) = w (ix2 o k))
    (h2 : ∀ q : Fin 6400, (x2 : S1x6400.Idx → EReal) (ix2 0 q) = d (ix2 0 (j q))) :
    (k0_pay1 (F := Ideal) x1 x0 x2 : S32x6400.Idx → EReal)
      = fun y : S32x6400.Idx => denseT (k := 128) a w d (ix2 (y 0) (j (y 1))) := by
  funext y
  obtain ⟨o, q, rfl⟩ : ∃ (o : Fin 32) (q : Fin 6400), y = ix2 o q := ⟨y 0, y 1, eq_ix2 y⟩
  exact block_apply a w d x0 x1 x2 j h0 h1 h2 o q

/-- The printed index maps over the sixteen points: the feature, scale and output windows sit at column block `t`, the
    weight window does not move. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column `q` of point `t`'s block is column `6400 t + q` of the array. -/
def col (t : Fin cfg0.N) (q : Fin 6400) : Fin 102400 :=
  ⟨t.val * 6400 + q.val, by have ht := t.isLt; have hN : cfg0.N = 16 := N_0; have hq := q.isLt; omega⟩

/-- The feature window's block at point `t`. -/
theorem blk0_apply (c : Dev nD) (t : Fin cfg0.N) (k : Fin 128) (q : Fin 6400) :
    (iblk0 V c 0 t : Vec Ideal S128x6400 .f32) (ix2 k q) = (V c main_v16 : S128x102400.Idx → EReal) (ix2 k (col t q)) := by
  obtain ⟨e00, e01, -⟩ := idx_facts t
  unfold iblk0
  rw [View.read_apply]
  show V c main_v16 _ = V c main_v16 _
  congr 1
  funext ax
  apply Fin.ext
  match ax with
  | ⟨0, _⟩ => show win0_0.index t (0 : Fin 2) * 128 + 1 * k.val = k.val; rw [e00]; omega
  | ⟨1, _⟩ => show win0_0.index t (1 : Fin 2) * 6400 + 1 * q.val = t.val * 6400 + q.val; rw [e01]; omega

/-- The weight window's block at any point is the whole array. -/
theorem blk1_apply (c : Dev nD) (t : Fin cfg0.N) (o : Fin 32) (k : Fin 128) :
    (iblk0 V c 1 t : Vec Ideal S32x128 .f32) (ix2 o k) = (V c main_v17 : S32x128.Idx → EReal) (ix2 o k) := by
  obtain ⟨-, -, e10, e11, -⟩ := idx_facts t
  unfold iblk0
  rw [View.read_apply]
  show V c main_v17 _ = V c main_v17 _
  congr 1
  funext ax
  apply Fin.ext
  match ax with
  | ⟨0, _⟩ => show win0_1.index t (0 : Fin 2) * 32 + 1 * o.val = o.val; rw [e10]; omega
  | ⟨1, _⟩ => show win0_1.index t (1 : Fin 2) * 128 + 1 * k.val = k.val; rw [e11]; omega

/-- The scale window's block at point `t`. -/
theorem blk2_apply (c : Dev nD) (t : Fin cfg0.N) (q : Fin 6400) :
    (iblk0 V c 2 t : Vec Ideal S1x6400 .f32) (ix2 0 q) = (V c main_v14 : S1x102400.Idx → EReal) (ix2 0 (col t q)) := by
  obtain ⟨-, -, -, -, e20, e21, -⟩ := idx_facts t
  unfold iblk0
  rw [View.read_apply]
  show V c main_v14 _ = V c main_v14 _
  congr 1
  funext ax
  apply Fin.ext
  match ax with
  | ⟨0, _⟩ => show win0_2.index t (0 : Fin 2) * 1 + 1 * 0 = 0; rw [e20]
  | ⟨1, _⟩ => show win0_2.index t (1 : Fin 2) * 6400 + 1 * q.val = t.val * 6400 + q.val; rw [e21]; omega

/-- What point `t` writes back is block `t` of the whole-array function. -/
theorem flushed_eq (c : Dev nD) (t : Fin cfg0.N) :
    (dat0 (F := Ideal) V c).flushed 3 t
      = ((cfg0.win 3).blk t).view.read (Elt Ideal)
          (denseT (k := 128) (V c main_v16 : S128x102400.Idx → EReal) (V c main_v17 : S32x128.Idx → EReal) (V c main_v14 : S1x102400.Idx → EReal)) := by
  show (cfg0.win 3).cut (grid0.coords t) ((dat0 V c).after 3 t) = _
  rw [after0_3]
  unfold out0_3
  rw [View.canon_unit_zero hz]
  simp only [View.ld_unit_zero (S := S32x128) hz, View.ld_unit_zero (S := S128x6400) hz, View.ld_unit_zero (S := S1x6400) hz]
  obtain ⟨-, -, -, -, -, -, e30, e31⟩ := idx_facts t
  funext y
  refine (congrFun (block_fn (V c main_v16) (V c main_v17) (V c main_v14) (iblk0 V c 0 t) (iblk0 V c 1 t) (iblk0 V c 2 t)
    (col t) (blk0_apply V c t) (blk1_apply V c t) (blk2_apply V c t)) y).trans ?_
  show denseT (k := 128) (V c main_v16 : S128x102400.Idx → EReal) (V c main_v17 : S32x128.Idx → EReal) (V c main_v14 : S1x102400.Idx → EReal) _
     = denseT (k := 128) (V c main_v16 : S128x102400.Idx → EReal) (V c main_v17 : S32x128.Idx → EReal) (V c main_v14 : S1x102400.Idx → EReal) (((cfg0.win 3).blk t).view.emb y)
  congr 1
  funext ax
  apply Fin.ext
  match ax with
  | ⟨0, _⟩ => show (y 0).val = win0_3.index t (0 : Fin 2) * 32 + 1 * (y 0).val; rw [e30]; omega
  | ⟨1, _⟩ => show t.val * 6400 + (y 1).val = win0_3.index t (1 : Fin 2) * 6400 + 1 * (y 1).val; rw [e31]; omega

/-- An index of the array is in point `t`'s block iff each coordinate is in the block's range on its axis. -/
theorem mem_blk (t : Fin cfg0.N) (i : S32x102400.Idx) :
    i ∈ ((cfg0.win 3).blk t).view.set ↔ ∀ a : Fin 2, win0_3.index t a * S32x6400.size a ≤ (i a).val ∧ (i a).val < win0_3.index t a * S32x6400.size a + S32x6400.size a := by
  show i ∈ ((View.whole main_v18).slice (win0_3.rect t)).set ↔ _
  rw [View.set_slice_whole, Rect.mem_set_unit]
  exact Iff.rfl

/-- Every index of the array lies in the block of the point its column names. -/
theorem cover (i : S32x102400.Idx) :
    ∃ t : Fin cfg0.N, (cfg0.win 3).flush t = true ∧ i ∈ ((cfg0.win 3).blk t).view.set := by
  have hi0 : (i 0).val < 32 := (i 0).isLt
  have hi1 : (i 1).val < 102400 := (i 1).isLt
  have hN : cfg0.N = 16 := N_0
  let t : Fin cfg0.N := ⟨(i 1).val / 6400, by omega⟩
  obtain ⟨-, -, -, -, -, -, e30, e31⟩ := idx_facts t
  have ht : t.val = (i 1).val / 6400 := rfl
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; rw [e30]; omega
  | ⟨1, _⟩ => show win0_3.index t (1 : Fin 2) * 6400 ≤ (i 1).val ∧ (i 1).val < win0_3.index t (1 : Fin 2) * 6400 + 6400; rw [e31, ht]; omega

/-- The output array after the region. -/
theorem value (c : Dev nD) :
    (dat0 (F := Ideal) V c).arrAt 3 cfg0.N
      = denseT (k := 128) (V c main_v16 : S128x102400.Idx → EReal) (V c main_v17 : S32x128.Idx → EReal) (V c main_v14 : S1x102400.Idx → EReal) :=
  (dat0 (F := Ideal) V c).arrAt_eq_of_cover 3 _ (fun t _ => flushed_eq V c t) cover

end Cert.Gcn.Region0

end
-- ==== Proof.Region1.lean ====
/-
  The dense transform's region 1, read as one array: after the pipeline has run over its sixteen column blocks, entry
  `(o, j)` of the output array is row `o` of the weight window against column `j` of the feature window, times column
  `j` of the scale window.

  The steps. (1) The body's stored value at `(o, q)` of a block: a product accumulated into zero is the sum over the
  contraction index, and the scale row is repeated down the 32 rows. (2) Grid point `t` stages columns
  `6400 t … 6400 t + 6399` of the feature and scale arrays and the whole weight array, and writes back the same columns
  of the output. (3) So what point `t` writes back is block `t` of the whole-array function, and since column `j` lies in
  block `j / 6400`, the sixteen blocks cover the array.
-/
import proofs.«427937_j30253749633693_4_alg».proof.Proof.Gen.KernelIdeal.Frame
import proofs.«427937_j30253749633693_4_alg».proof.Proof.Spec
import proofs.«427937_j30253749633693_4_alg».proof.Proof.LibPlainDot
import Idealize.ShloMosaic.Lib.Pipeline.Value
import Idealize.ShloMosaic.PureOps.Ideal.Laws

set_option maxRecDepth 16384

noncomputable section

namespace Cert.Gcn.Region1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets of a whole-buffer rectangle are zero on both axes. -/
theorem hz : (![0, 0] : Fin 2 → Nat) = fun _ => 0 := funext fun a => by
  match a with
  | ⟨0, _⟩ => rfl
  | ⟨1, _⟩ => rfl

/-- The body's stored value at row `o`, column `q` of a block: the weight block's row `o` against the feature block's
    column `q`, times the scale block's column `q`. -/
theorem pay_apply (x1 : Vec Ideal S32x32 .f32) (x0 : Vec Ideal S32x6400 .f32) (x2 : Vec Ideal S1x6400 .f32)
    (o : Fin 32) (q : Fin 6400) :
    (k1_pay1 (F := Ideal) x1 x0 x2 : S32x6400.Idx → EReal) (ix2 o q)
      = (∑ k : Fin 32, (x1 : S32x32.Idx → EReal) (ix2 o k) * (x0 : S32x6400.Idx → EReal) (ix2 k q))
          * (x2 : S1x6400.Idx → EReal) (ix2 0 q) := by
  unfold k1_pay1
  simp only [shapeCast_self]
  rw [mulf_apply]
  refine congrArg₂ (· * ·) (PlainDot.matmul_zero_apply 32 32 6400 none x1 x0 o q) ?_
  exact broadcastTo_apply x2 broadcasts_S1x6400_S32x6400 (ix2 o q) (ix2 0 q) (fun a => by
    match a with
    | ⟨0, _⟩ => rfl
    | ⟨1, _⟩ => rfl)

/-- A block whose entries are those of the arrays at the columns `j q` holds, after the body, the whole-array function
    at those columns. -/
theorem block_apply (a : S32x102400.Idx → EReal) (w : S32x32.Idx → EReal) (d : S1x102400.Idx → EReal)
    (x0 : Vec Ideal S32x6400 .f32) (x1 : Vec Ideal S32x32 .f32) (x2 : Vec Ideal S1x6400 .f32)
    (j : Fin 6400 → Fin 102400)
    (h0 : ∀ (k : Fin 32) (q : Fin 6400), (x0 : S32x6400.Idx → EReal) (ix2 k q) = a (ix2 k (j q)))
    (h1 : ∀ (o : Fin 32) (k : Fin 32), (x1 : S32x32.Idx → EReal) (ix2 o k) = w (ix2 o k))
    (h2 : ∀ q : Fin 6400, (x2 : S1x6400.Idx → EReal) (ix2 0 q) = d (ix2 0 (j q)))
    (o : Fin 32) (q : Fin 6400) :
    (k1_pay1 (F := Ideal) x1 x0 x2 : S32x6400.Idx → EReal) (ix2 o q) = denseT (k := 32) a w d (ix2 o (j q)) := by
  rw [pay_apply, denseT_apply, h2]
  exact congrArg (· * d (ix2 0 (j q))) (Finset.sum_congr rfl fun k _ => by rw [h0, h1])

/-- The same, as a function of the block's index. -/
theorem block_fn (a : S32x102400.Idx → EReal) (w : S32x32.Idx → EReal) (d : S1x102400.Idx → EReal)
    (x0 : Vec Ideal S32x6400 .f32) (x1 : Vec Ideal S32x32 .f32) (x2 : Vec Ideal S1x6400 .f32)
    (j : Fin 6400 → Fin 102400)
    (h0 : ∀ (k : Fin 32) (q : Fin 6400), (x0 : S32x6400.Idx → EReal) (ix2 k q) = a (ix2 k (j q)))
    (h1 : ∀ (o : Fin 32) (k : Fin 32), (x1 : S32x32.Idx → EReal) (ix2 o k) = w (ix2 o k))
    (h2 : ∀ q : Fin 6400, (x2 : S1x6400.Idx → EReal) (ix2 0 q) = d (ix2 0 (j q))) :
    (k1_pay1 (F := Ideal) x1 x0 x2 : S32x6400.Idx → EReal)
      = fun y : S32x6400.Idx => denseT (k := 32) a w d (ix2 (y 0) (j (y 1))) := by
  funext y
  obtain ⟨o, q, rfl⟩ : ∃ (o : Fin 32) (q : Fin 6400), y = ix2 o q := ⟨y 0, y 1, eq_ix2 y⟩
  exact block_apply a w d x0 x1 x2 j h0 h1 h2 o q

/-- The printed index maps over the sixteen points: the feature, scale and output windows sit at column block `t`, the
    weight window does not move. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- Column `q` of point `t`'s block is column `6400 t + q` of the array. -/
def col (t : Fin cfg1.N) (q : Fin 6400) : Fin 102400 :=
  ⟨t.val * 6400 + q.val, by have ht := t.isLt; have hN : cfg1.N = 16 := N_1; have hq := q.isLt; omega⟩

/-- The feature window's block at point `t`. -/
theorem blk0_apply (c : Dev nD) (t : Fin cfg1.N) (k : Fin 32) (q : Fin 6400) :
    (iblk1 V c 0 t : Vec Ideal S32x6400 .f32) (ix2 k q) = (V c main_v39 : S32x102400.Idx → EReal) (ix2 k (col t q)) := by
  obtain ⟨e00, e01, -⟩ := idx_facts t
  unfold iblk1
  rw [View.read_apply]
  show V c main_v39 _ = V c main_v39 _
  congr 1
  funext ax
  apply Fin.ext
  match ax with
  | ⟨0, _⟩ => show win1_0.index t (0 : Fin 2) * 32 + 1 * k.val = k.val; rw [e00]; omega
  | ⟨1, _⟩ => show win1_0.index t (1 : Fin 2) * 6400 + 1 * q.val = t.val * 6400 + q.val; rw [e01]; omega

/-- The weight window's block at any point is the whole array. -/
theorem blk1_apply (c : Dev nD) (t : Fin cfg1.N) (o : Fin 32) (k : Fin 32) :
    (iblk1 V c 1 t : Vec Ideal S32x32 .f32) (ix2 o k) = (V c main_v40 : S32x32.Idx → EReal) (ix2 o k) := by
  obtain ⟨-, -, e10, e11, -⟩ := idx_facts t
  unfold iblk1
  rw [View.read_apply]
  show V c main_v40 _ = V c main_v40 _
  congr 1
  funext ax
  apply Fin.ext
  match ax with
  | ⟨0, _⟩ => show win1_1.index t (0 : Fin 2) * 32 + 1 * o.val = o.val; rw [e10]; omega
  | ⟨1, _⟩ => show win1_1.index t (1 : Fin 2) * 32 + 1 * k.val = k.val; rw [e11]; omega

/-- The scale window's block at point `t`. -/
theorem blk2_apply (c : Dev nD) (t : Fin cfg1.N) (q : Fin 6400) :
    (iblk1 V c 2 t : Vec Ideal S1x6400 .f32) (ix2 0 q) = (V c main_v14 : S1x102400.Idx → EReal) (ix2 0 (col t q)) := by
  obtain ⟨-, -, -, -, e20, e21, -⟩ := idx_facts t
  unfold iblk1
  rw [View.read_apply]
  show V c main_v14 _ = V c main_v14 _
  congr 1
  funext ax
  apply Fin.ext
  match ax with
  | ⟨0, _⟩ => show win1_2.index t (0 : Fin 2) * 1 + 1 * 0 = 0; rw [e20]
  | ⟨1, _⟩ => show win1_2.index t (1 : Fin 2) * 6400 + 1 * q.val = t.val * 6400 + q.val; rw [e21]; omega

/-- What point `t` writes back is block `t` of the whole-array function. -/
theorem flushed_eq (c : Dev nD) (t : Fin cfg1.N) :
    (dat1 (F := Ideal) V c).flushed 3 t
      = ((cfg1.win 3).blk t).view.read (Elt Ideal)
          (denseT (k := 32) (V c main_v39 : S32x102400.Idx → EReal) (V c main_v40 : S32x32.Idx → EReal) (V c main_v14 : S1x102400.Idx → EReal)) := by
  show (cfg1.win 3).cut (grid1.coords t) ((dat1 V c).after 3 t) = _
  rw [after1_3]
  unfold out1_3
  rw [View.canon_unit_zero hz]
  simp only [View.ld_unit_zero (S := S32x32) hz, View.ld_unit_zero (S := S32x6400) hz, View.ld_unit_zero (S := S1x6400) hz]
  obtain ⟨-, -, -, -, -, -, e30, e31⟩ := idx_facts t
  funext y
  refine (congrFun (block_fn (V c main_v39) (V c main_v40) (V c main_v14) (iblk1 V c 0 t) (iblk1 V c 1 t) (iblk1 V c 2 t)
    (col t) (blk0_apply V c t) (blk1_apply V c t) (blk2_apply V c t)) y).trans ?_
  show denseT (k := 32) (V c main_v39 : S32x102400.Idx → EReal) (V c main_v40 : S32x32.Idx → EReal) (V c main_v14 : S1x102400.Idx → EReal) _
     = denseT (k := 32) (V c main_v39 : S32x102400.Idx → EReal) (V c main_v40 : S32x32.Idx → EReal) (V c main_v14 : S1x102400.Idx → EReal) (((cfg1.win 3).blk t).view.emb y)
  congr 1
  funext ax
  apply Fin.ext
  match ax with
  | ⟨0, _⟩ => show (y 0).val = win1_3.index t (0 : Fin 2) * 32 + 1 * (y 0).val; rw [e30]; omega
  | ⟨1, _⟩ => show t.val * 6400 + (y 1).val = win1_3.index t (1 : Fin 2) * 6400 + 1 * (y 1).val; rw [e31]; omega

/-- An index of the array is in point `t`'s block iff each coordinate is in the block's range on its axis. -/
theorem mem_blk (t : Fin cfg1.N) (i : S32x102400.Idx) :
    i ∈ ((cfg1.win 3).blk t).view.set ↔ ∀ a : Fin 2, win1_3.index t a * S32x6400.size a ≤ (i a).val ∧ (i a).val < win1_3.index t a * S32x6400.size a + S32x6400.size a := by
  show i ∈ ((View.whole main_v41).slice (win1_3.rect t)).set ↔ _
  rw [View.set_slice_whole, Rect.mem_set_unit]
  exact Iff.rfl

/-- Every index of the array lies in the block of the point its column names. -/
theorem cover (i : S32x102400.Idx) :
    ∃ t : Fin cfg1.N, (cfg1.win 3).flush t = true ∧ i ∈ ((cfg1.win 3).blk t).view.set := by
  have hi0 : (i 0).val < 32 := (i 0).isLt
  have hi1 : (i 1).val < 102400 := (i 1).isLt
  have hN : cfg1.N = 16 := N_1
  let t : Fin cfg1.N := ⟨(i 1).val / 6400, by omega⟩
  obtain ⟨-, -, -, -, -, -, e30, e31⟩ := idx_facts t
  have ht : t.val = (i 1).val / 6400 := rfl
  refine ⟨t, flush1_3 t, ?_⟩
  rw [mem_blk]
  intro a
  match a with
  | ⟨0, _⟩ => show win1_3.index t (0 : Fin 2) * 32 ≤ (i 0).val ∧ (i 0).val < win1_3.index t (0 : Fin 2) * 32 + 32; rw [e30]; omega
  | ⟨1, _⟩ => show win1_3.index t (1 : Fin 2) * 6400 ≤ (i 1).val ∧ (i 1).val < win1_3.index t (1 : Fin 2) * 6400 + 6400; rw [e31, ht]; omega

/-- The output array after the region. -/
theorem value (c : Dev nD) :
    (dat1 (F := Ideal) V c).arrAt 3 cfg1.N
      = denseT (k := 32) (V c main_v39 : S32x102400.Idx → EReal) (V c main_v40 : S32x32.Idx → EReal) (V c main_v14 : S1x102400.Idx → EReal) :=
  (dat1 (F := Ideal) V c).arrAt_eq_of_cover 3 _ (fun t _ => flushed_eq V c t) cover

end Cert.Gcn.Region1

end
-- ==== Proof.Region2.lean ====
/-
  The dense transform's region 2, read as one array: after the pipeline has run over its sixteen column blocks, entry
  `(o, j)` of the output array is row `o` of the weight window against column `j` of the feature window, times column
  `j` of the scale window.

  The steps. (1) The body's stored value at `(o, q)` of a block: a product accumulated into zero is the sum over the
  contraction index, and the scale row is repeated down the 32 rows. (2) Grid point `t` stages columns
  `6400 t … 6400 t + 6399` of the feature and scale arrays and the whole weight array, and writes back the same columns
  of the output. (3) So what point `t` writes back is block `t` of the whole-array function, and since column `j` lies in
  block `j / 6400`, the sixteen blocks cover the array.
-/
import proofs.«427937_j30253749633693_4_alg».proof.Proof.Gen.KernelIdeal.Frame
import proofs.«427937_j30253749633693_4_alg».proof.Proof.Spec
import proofs.«427937_j30253749633693_4_alg».proof.Proof.LibPlainDot
import Idealize.ShloMosaic.Lib.Pipeline.Value
import Idealize.ShloMosaic.PureOps.Ideal.Laws

set_option maxRecDepth 16384

noncomputable section

namespace Cert.Gcn.Region2

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets of a whole-buffer rectangle are zero on both axes. -/
theorem hz : (![0, 0] : Fin 2 → Nat) = fun _ => 0 := funext fun a => by
  match a with
  | ⟨0, _⟩ => rfl
  | ⟨1, _⟩ => rfl

/-- The body's stored value at row `o`, column `q` of a block: the weight block's row `o` against the feature block's
    column `q`, times the scale block's column `q`. -/
theorem pay_apply (x1 : Vec Ideal S32x32 .f32) (x0 : Vec Ideal S32x6400 .f32) (x2 : Vec Ideal S1x6400 .f32)
    (o : Fin 32) (q : Fin 6400) :
    (k2_pay1 (F := Ideal) x1 x0 x2 : S32x6400.Idx → EReal) (ix2 o q)
      = (∑ k : Fin 32, (x1 : S32x32.Idx → EReal) (ix2 o k) * (x0 : S32x6400.Idx → EReal) (ix2 k q))
          * (x2 : S1x6400.Idx → EReal) (ix2 0 q) := by
  unfold k2_pay1
  simp only [shapeCast_self]
  rw [mulf_apply]
  refine congrArg₂ (· * ·) (PlainDot.matmul_zero_apply 32 32 6400 none x1 x0 o q) ?_
  exact broadcastTo_apply x2 broadcasts_S1x6400_S32x6400 (ix2 o q) (ix2 0 q) (fun a => by
    match a with
    | ⟨0, _⟩ => rfl
    | ⟨1, _⟩ => rfl)

/-- A block whose entries are those of the arrays at the columns `j q` holds, after the body, the whole-array function
    at those columns. -/
theorem block_apply (a : S32x102400.Idx → EReal) (w : S32x32.Idx → EReal) (d : S1x102400.Idx → EReal)
    (x0 : Vec Ideal S32x6400 .f32) (x1 : Vec Ideal S32x32 .f32) (x2 : Vec Ideal S1x6400 .f32)
    (j : Fin 6400 → Fin 102400)
    (h0 : ∀ (k : Fin 32) (q : Fin 6400), (x0 : S32x6400.Idx → EReal) (ix2 k q) = a (ix2 k (j q)))
    (h1 : ∀ (o : Fin 32) (k : Fin 32), (x1 : S32x32.Idx → EReal) (ix2 o k) = w (ix2 o k))
    (h2 : ∀ q : Fin 6400, (x2 : S1x6400.Idx → EReal) (ix2 0 q) = d (ix2 0 (j q)))
    (o : Fin 32) (q : Fin 6400) :
    (k2_pay1 (F := Ideal) x1 x0 x2 : S32x6400.Idx → EReal) (ix2 o q) = denseT (k := 32) a w d (ix2 o (j q)) := by
  rw [pay_apply, denseT_apply, h2]
  exact congrArg (· * d (ix2 0 (j q))) (Finset.sum_congr rfl fun k _ => by rw [h0, h1])

/-- The same, as a function of the block's index. -/
theorem block_fn (a : S32x102400.Idx → EReal) (w : S32x32.Idx → EReal) (d : S1x102400.Idx → EReal)
    (x0 : Vec Ideal S32x6400 .f32) (x1 : Vec Ideal S32x32 .f32) (x2 : Vec Ideal S1x6400 .f32)
    (j : Fin 6400 → Fin 102400)
    (h0 : ∀ (k : Fin 32) (q : Fin 6400), (x0 : S32x6400.Idx → EReal) (ix2 k q) = a (ix2 k (j q)))
    (h1 : ∀ (o : Fin 32) (k : Fin 32), (x1 : S32x32.Idx → EReal) (ix2 o k) = w (ix2 o k))
    (h2 : ∀ q : Fin 6400, (x2 : S1x6400.Idx → EReal) (ix2 0 q) = d (ix2 0 (j q))) :
    (k2_pay1 (F := Ideal) x1 x0 x2 : S32x6400.Idx → EReal)
      = fun y : S32x6400.Idx => denseT (k := 32) a w d (ix2 (y 0) (j (y 1))) := by
  funext y
  obtain ⟨o, q, rfl⟩ : ∃ (o : Fin 32) (q : Fin 6400), y = ix2 o q := ⟨y 0, y 1, eq_ix2 y⟩
  exact block_apply a w d x0 x1 x2 j h0 h1 h2 o q

/-- The printed index maps over the sixteen points: the feature, scale and output windows sit at column block `t`, the
    weight window does not move. -/
theorem idx_facts : ∀ t : Fin cfg2.N,
    win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- Column `q` of point `t`'s block is column `6400 t + q` of the array. -/
def col (t : Fin cfg2.N) (q : Fin 6400) : Fin 102400 :=
  ⟨t.val * 6400 + q.val, by have ht := t.isLt; have hN : cfg2.N = 16 := N_2; have hq := q.isLt; omega⟩

/-- The feature window's block at point `t`. -/
theorem blk0_apply (c : Dev nD) (t : Fin cfg2.N) (k : Fin 32) (q : Fin 6400) :
    (iblk2 V c 0 t : Vec Ideal S32x6400 .f32) (ix2 k q) = (V c main_v62 : S32x102400.Idx → EReal) (ix2 k (col t q)) := by
  obtain ⟨e00, e01, -⟩ := idx_facts t
  unfold iblk2
  rw [View.read_apply]
  show V c main_v62 _ = V c main_v62 _
  congr 1
  funext ax
  apply Fin.ext
  match ax with
  | ⟨0, _⟩ => show win2_0.index t (0 : Fin 2) * 32 + 1 * k.val = k.val; rw [e00]; omega
  | ⟨1, _⟩ => show win2_0.index t (1 : Fin 2) * 6400 + 1 * q.val = t.val * 6400 + q.val; rw [e01]; omega

/-- The weight window's block at any point is the whole array. -/
theorem blk1_apply (c : Dev nD) (t : Fin cfg2.N) (o : Fin 32) (k : Fin 32) :
    (iblk2 V c 1 t : Vec Ideal S32x32 .f32) (ix2 o k) = (V c main_v63 : S32x32.Idx → EReal) (ix2 o k) := by
  obtain ⟨-, -, e10, e11, -⟩ := idx_facts t
  unfold iblk2
  rw [View.read_apply]
  show V c main_v63 _ = V c main_v63 _
  congr 1
  funext ax
  apply Fin.ext
  match ax with
  | ⟨0, _⟩ => show win2_1.index t (0 : Fin 2) * 32 + 1 * o.val = o.val; rw [e10]; omega
  | ⟨1, _⟩ => show win2_1.index t (1 : Fin 2) * 32 + 1 * k.val = k.val; rw [e11]; omega

/-- The scale window's block at point `t`. -/
theorem blk2_apply (c : Dev nD) (t : Fin cfg2.N) (q : Fin 6400) :
    (iblk2 V c 2 t : Vec Ideal S1x6400 .f32) (ix2 0 q) = (V c main_v14 : S1x102400.Idx → EReal) (ix2 0 (col t q)) := by
  obtain ⟨-, -, -, -, e20, e21, -⟩ := idx_facts t
  unfold iblk2
  rw [View.read_apply]
  show V c main_v14 _ = V c main_v14 _
  congr 1
  funext ax
  apply Fin.ext
  match ax with
  | ⟨0, _⟩ => show win2_2.index t (0 : Fin 2) * 1 + 1 * 0 = 0; rw [e20]
  | ⟨1, _⟩ => show win2_2.index t (1 : Fin 2) * 6400 + 1 * q.val = t.val * 6400 + q.val; rw [e21]; omega

/-- What point `t` writes back is block `t` of the whole-array function. -/
theorem flushed_eq (c : Dev nD) (t : Fin cfg2.N) :
    (dat2 (F := Ideal) V c).flushed 3 t
      = ((cfg2.win 3).blk t).view.read (Elt Ideal)
          (denseT (k := 32) (V c main_v62 : S32x102400.Idx → EReal) (V c main_v63 : S32x32.Idx → EReal) (V c main_v14 : S1x102400.Idx → EReal)) := by
  show (cfg2.win 3).cut (grid2.coords t) ((dat2 V c).after 3 t) = _
  rw [after2_3]
  unfold out2_3
  rw [View.canon_unit_zero hz]
  simp only [View.ld_unit_zero (S := S32x32) hz, View.ld_unit_zero (S := S32x6400) hz, View.ld_unit_zero (S := S1x6400) hz]
  obtain ⟨-, -, -, -, -, -, e30, e31⟩ := idx_facts t
  funext y
  refine (congrFun (block_fn (V c main_v62) (V c main_v63) (V c main_v14) (iblk2 V c 0 t) (iblk2 V c 1 t) (iblk2 V c 2 t)
    (col t) (blk0_apply V c t) (blk1_apply V c t) (blk2_apply V c t)) y).trans ?_
  show denseT (k := 32) (V c main_v62 : S32x102400.Idx → EReal) (V c main_v63 : S32x32.Idx → EReal) (V c main_v14 : S1x102400.Idx → EReal) _
     = denseT (k := 32) (V c main_v62 : S32x102400.Idx → EReal) (V c main_v63 : S32x32.Idx → EReal) (V c main_v14 : S1x102400.Idx → EReal) (((cfg2.win 3).blk t).view.emb y)
  congr 1
  funext ax
  apply Fin.ext
  match ax with
  | ⟨0, _⟩ => show (y 0).val = win2_3.index t (0 : Fin 2) * 32 + 1 * (y 0).val; rw [e30]; omega
  | ⟨1, _⟩ => show t.val * 6400 + (y 1).val = win2_3.index t (1 : Fin 2) * 6400 + 1 * (y 1).val; rw [e31]; omega

/-- An index of the array is in point `t`'s block iff each coordinate is in the block's range on its axis. -/
theorem mem_blk (t : Fin cfg2.N) (i : S32x102400.Idx) :
    i ∈ ((cfg2.win 3).blk t).view.set ↔ ∀ a : Fin 2, win2_3.index t a * S32x6400.size a ≤ (i a).val ∧ (i a).val < win2_3.index t a * S32x6400.size a + S32x6400.size a := by
  show i ∈ ((View.whole main_v64).slice (win2_3.rect t)).set ↔ _
  rw [View.set_slice_whole, Rect.mem_set_unit]
  exact Iff.rfl

/-- Every index of the array lies in the block of the point its column names. -/
theorem cover (i : S32x102400.Idx) :
    ∃ t : Fin cfg2.N, (cfg2.win 3).flush t = true ∧ i ∈ ((cfg2.win 3).blk t).view.set := by
  have hi0 : (i 0).val < 32 := (i 0).isLt
  have hi1 : (i 1).val < 102400 := (i 1).isLt
  have hN : cfg2.N = 16 := N_2
  let t : Fin cfg2.N := ⟨(i 1).val / 6400, by omega⟩
  obtain ⟨-, -, -, -, -, -, e30, e31⟩ := idx_facts t
  have ht : t.val = (i 1).val / 6400 := rfl
  refine ⟨t, flush2_3 t, ?_⟩
  rw [mem_blk]
  intro a
  match a with
  | ⟨0, _⟩ => show win2_3.index t (0 : Fin 2) * 32 ≤ (i 0).val ∧ (i 0).val < win2_3.index t (0 : Fin 2) * 32 + 32; rw [e30]; omega
  | ⟨1, _⟩ => show win2_3.index t (1 : Fin 2) * 6400 ≤ (i 1).val ∧ (i 1).val < win2_3.index t (1 : Fin 2) * 6400 + 6400; rw [e31, ht]; omega

/-- The output array after the region. -/
theorem value (c : Dev nD) :
    (dat2 (F := Ideal) V c).arrAt 3 cfg2.N
      = denseT (k := 32) (V c main_v62 : S32x102400.Idx → EReal) (V c main_v63 : S32x32.Idx → EReal) (V c main_v14 : S1x102400.Idx → EReal) :=
  (dat2 (F := Ideal) V c).arrAt_eq_of_cover 3 _ (fun t _ => flushed_eq V c t) cover

end Cert.Gcn.Region2

end
-- ==== Proof.KVal.lean ====
/-
  The kernel program's result buffer is `K.result` of the arguments: the reading of the host operations, with each
  region's output array at its entry-by-entry value and each region's inputs read back to the arguments in turn.
-/
import proofs.«427937_j30253749633693_4_alg».proof.Proof.KHost0
import proofs.«427937_j30253749633693_4_alg».proof.Proof.KHost1
import proofs.«427937_j30253749633693_4_alg».proof.Proof.KHost2
import proofs.«427937_j30253749633693_4_alg».proof.Proof.KHost3
import proofs.«427937_j30253749633693_4_alg».proof.Proof.Region0
import proofs.«427937_j30253749633693_4_alg».proof.Proof.Region1
import proofs.«427937_j30253749633693_4_alg».proof.Proof.Region2

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first region -/

theorem w6_v18 : W6 m ρ c (Proc.devRef .tc main_v18)
    = (denseT (k := 128) (K.padT128 (m ((c.tc : Thread nD τ).loc main_arg0))) (K.wT128 (m ((c.tc : Thread nD τ).loc main_arg3))) (K.dinvRow (K.dinv (K.dstOf (m ((c.tc : Thread nD τ).loc main_arg1)))))) := by
  refine (W6_arr m ρ c 3).trans ?_
  rw [Region0.value (V5 m ρ) c]
  dsimp only [V5]
  rw [KHost.w5_v16, KHost.w5_v17, KHost.w5_v14]
theorem w6_v14 : W6 m ρ c (Proc.devRef .tc main_v14)
    = K.dinvRow (K.dinv (K.dstOf (m ((c.tc : Thread nD τ).loc main_arg1)))) := by
  exact (W6_arr m ρ c 2).trans (((dat0 (V5 m ρ) c).arrAt_in 2 rfl cfg0.N).trans ((A_eq0 (V5 m ρ) c 2).trans (KHost.w5_v14 m ρ c)))
theorem w6_v3 : W6 m ρ c (Proc.devRef .tc main_v3)
    = (K.srcOf (m ((c.tc : Thread nD τ).loc main_arg1))) := by
  rw [W6_of_ne m ρ c main_v3 (by decide), KHost.w5_v3]
theorem w6_v6 : W6 m ρ c (Proc.devRef .tc main_v6)
    = (K.dstOf (m ((c.tc : Thread nD τ).loc main_arg1))) := by
  rw [W6_of_ne m ρ c main_v6 (by decide), KHost.w5_v6]
theorem w6_v12 : W6 m ρ c (Proc.devRef .tc main_v12)
    = (K.dinv (K.dstOf (m ((c.tc : Thread nD τ).loc main_arg1)))) := by
  rw [W6_of_ne m ρ c main_v12 (by decide), KHost.w5_v12]
theorem w6_arg2 : W6 m ρ c (Proc.devRef .tc main_arg2)
    = (m ((c.tc : Thread nD τ).loc main_arg2)) := by
  rw [W6_of_ne m ρ c main_arg2 (by decide), KHost.w5_arg2]
theorem w6_arg4 : W6 m ρ c (Proc.devRef .tc main_arg4)
    = (m ((c.tc : Thread nD τ).loc main_arg4)) := by
  rw [W6_of_ne m ρ c main_arg4 (by decide), KHost.w5_arg4]
theorem w6_arg5 : W6 m ρ c (Proc.devRef .tc main_arg5)
    = (m ((c.tc : Thread nD τ).loc main_arg5)) := by
  rw [W6_of_ne m ρ c main_arg5 (by decide), KHost.w5_arg5]
theorem w6_arg6 : W6 m ρ c (Proc.devRef .tc main_arg6)
    = (m ((c.tc : Thread nD τ).loc main_arg6)) := by
  rw [W6_of_ne m ρ c main_arg6 (by decide), KHost.w5_arg6]
theorem w6_arg7 : W6 m ρ c (Proc.devRef .tc main_arg7)
    = (m ((c.tc : Thread nD τ).loc main_arg7)) := by
  rw [W6_of_ne m ρ c main_arg7 (by decide), KHost.w5_arg7]
theorem w6_arg8 : W6 m ρ c (Proc.devRef .tc main_arg8)
    = (m ((c.tc : Thread nD τ).loc main_arg8)) := by
  rw [W6_of_ne m ρ c main_arg8 (by decide), KHost.w5_arg8]
theorem w6_arg9 : W6 m ρ c (Proc.devRef .tc main_arg9)
    = (m ((c.tc : Thread nD τ).loc main_arg9)) := by
  rw [W6_of_ne m ρ c main_arg9 (by decide), KHost.w5_arg9]
theorem w6_arg10 : W6 m ρ c (Proc.devRef .tc main_arg10)
    = (m ((c.tc : Thread nD τ).loc main_arg10)) := by
  rw [W6_of_ne m ρ c main_arg10 (by decide), KHost.w5_arg10]

/-! ## The second region -/

theorem w11_v39 : W11 m ρ c (Proc.devRef .tc main_v39)
    = K.padT32 (K.layerOut (denseT (k := 128) (K.padT128 (m ((c.tc : Thread nD τ).loc main_arg0))) (K.wT128 (m ((c.tc : Thread nD τ).loc main_arg3))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg4))) := by
  rw [KHost.S1.w11_feat, w6_v18, w6_v3, w6_v6, w6_v12, w6_arg4]
theorem w11_v40 : W11 m ρ c (Proc.devRef .tc main_v40)
    = K.wT32 (m ((c.tc : Thread nD τ).loc main_arg5)) := by
  rw [KHost.S1.w11_weight, w6_arg5]
theorem w11_v14 : W11 m ρ c (Proc.devRef .tc main_v14)
    = K.dinvRow (K.dinv (K.dstOf (m ((c.tc : Thread nD τ).loc main_arg1)))) := by
  rw [KHost.S1.w11_v14, w6_v14]
theorem w12_v41 : W12 m ρ c (Proc.devRef .tc main_v41)
    = (denseT (k := 32) (K.padT32 (K.layerOut (denseT (k := 128) (K.padT128 (m ((c.tc : Thread nD τ).loc main_arg0))) (K.wT128 (m ((c.tc : Thread nD τ).loc main_arg3))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg4)))) (K.wT32 (m ((c.tc : Thread nD τ).loc main_arg5))) (K.dinvRow (K.dinv (K.dstOf (m ((c.tc : Thread nD τ).loc main_arg1)))))) := by
  refine (W12_arr m ρ c 3).trans ?_
  rw [Region1.value (V11 m ρ) c]
  dsimp only [V11]
  rw [w11_v39, w11_v40, w11_v14]
theorem w12_v14 : W12 m ρ c (Proc.devRef .tc main_v14)
    = K.dinvRow (K.dinv (K.dstOf (m ((c.tc : Thread nD τ).loc main_arg1)))) := by
  exact (W12_arr m ρ c 2).trans (((dat1 (V11 m ρ) c).arrAt_in 2 rfl cfg1.N).trans ((A_eq1 (V11 m ρ) c 2).trans (w11_v14 m ρ c)))
theorem w12_v3 : W12 m ρ c (Proc.devRef .tc main_v3)
    = (K.srcOf (m ((c.tc : Thread nD τ).loc main_arg1))) := by
  rw [W12_of_ne m ρ c main_v3 (by decide), KHost.S1.w11_v3, w6_v3]
theorem w12_v6 : W12 m ρ c (Proc.devRef .tc main_v6)
    = (K.dstOf (m ((c.tc : Thread nD τ).loc main_arg1))) := by
  rw [W12_of_ne m ρ c main_v6 (by decide), KHost.S1.w11_v6, w6_v6]
theorem w12_v12 : W12 m ρ c (Proc.devRef .tc main_v12)
    = (K.dinv (K.dstOf (m ((c.tc : Thread nD τ).loc main_arg1)))) := by
  rw [W12_of_ne m ρ c main_v12 (by decide), KHost.S1.w11_v12, w6_v12]
theorem w12_arg2 : W12 m ρ c (Proc.devRef .tc main_arg2)
    = (m ((c.tc : Thread nD τ).loc main_arg2)) := by
  rw [W12_of_ne m ρ c main_arg2 (by decide), KHost.S1.w11_arg2, w6_arg2]
theorem w12_arg6 : W12 m ρ c (Proc.devRef .tc main_arg6)
    = (m ((c.tc : Thread nD τ).loc main_arg6)) := by
  rw [W12_of_ne m ρ c main_arg6 (by decide), KHost.S1.w11_arg6, w6_arg6]
theorem w12_arg7 : W12 m ρ c (Proc.devRef .tc main_arg7)
    = (m ((c.tc : Thread nD τ).loc main_arg7)) := by
  rw [W12_of_ne m ρ c main_arg7 (by decide), KHost.S1.w11_arg7, w6_arg7]
theorem w12_arg8 : W12 m ρ c (Proc.devRef .tc main_arg8)
    = (m ((c.tc : Thread nD τ).loc main_arg8)) := by
  rw [W12_of_ne m ρ c main_arg8 (by decide), KHost.S1.w11_arg8, w6_arg8]
theorem w12_arg9 : W12 m ρ c (Proc.devRef .tc main_arg9)
    = (m ((c.tc : Thread nD τ).loc main_arg9)) := by
  rw [W12_of_ne m ρ c main_arg9 (by decide), KHost.S1.w11_arg9, w6_arg9]
theorem w12_arg10 : W12 m ρ c (Proc.devRef .tc main_arg10)
    = (m ((c.tc : Thread nD τ).loc main_arg10)) := by
  rw [W12_of_ne m ρ c main_arg10 (by decide), KHost.S1.w11_arg10, w6_arg10]

/-! ## The third region -/

theorem w17_v62 : W17 m ρ c (Proc.devRef .tc main_v62)
    = K.padT32 (K.layerOut (denseT (k := 32) (K.padT32 (K.layerOut (denseT (k := 128) (K.padT128 (m ((c.tc : Thread nD τ).loc main_arg0))) (K.wT128 (m ((c.tc : Thread nD τ).loc main_arg3))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg4)))) (K.wT32 (m ((c.tc : Thread nD τ).loc main_arg5))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg6))) := by
  rw [KHost.S2.w17_feat, w12_v41, w12_v3, w12_v6, w12_v12, w12_arg6]
theorem w17_v63 : W17 m ρ c (Proc.devRef .tc main_v63)
    = K.wT32 (m ((c.tc : Thread nD τ).loc main_arg7)) := by
  rw [KHost.S2.w17_weight, w12_arg7]
theorem w17_v14 : W17 m ρ c (Proc.devRef .tc main_v14)
    = K.dinvRow (K.dinv (K.dstOf (m ((c.tc : Thread nD τ).loc main_arg1)))) := by
  rw [KHost.S2.w17_v14, w12_v14]
theorem w18_v64 : W18 m ρ c (Proc.devRef .tc main_v64)
    = (denseT (k := 32) (K.padT32 (K.layerOut (denseT (k := 32) (K.padT32 (K.layerOut (denseT (k := 128) (K.padT128 (m ((c.tc : Thread nD τ).loc main_arg0))) (K.wT128 (m ((c.tc : Thread nD τ).loc main_arg3))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg4)))) (K.wT32 (m ((c.tc : Thread nD τ).loc main_arg5))) (K.dinvRow (K.dinv (K.dstOf (m ((c.tc : Thread nD τ).loc main_arg1)))))) (K.srcOf (m ((c.tc : Thread nD τ).loc main_arg1))) (K.dstOf (m ((c.tc : Thread nD τ).loc main_arg1))) (K.dinv (K.dstOf (m ((c.tc : Thread nD τ).loc main_arg1)))) (m ((c.tc : Thread nD τ).loc main_arg6)))) (K.wT32 (m ((c.tc : Thread nD τ).loc main_arg7))) (K.dinvRow (K.dinv (K.dstOf (m ((c.tc : Thread nD τ).loc main_arg1)))))) := by
  refine (W18_arr m ρ c 3).trans ?_
  rw [Region2.value (V17 m ρ) c]
  dsimp only [V17]
  rw [w17_v62, w17_v63, w17_v14]
theorem w18_v3 : W18 m ρ c (Proc.devRef .tc main_v3)
    = (K.srcOf (m ((c.tc : Thread nD τ).loc main_arg1))) := by
  rw [W18_of_ne m ρ c main_v3 (by decide), KHost.S2.w17_v3, w12_v3]
theorem w18_v6 : W18 m ρ c (Proc.devRef .tc main_v6)
    = (K.dstOf (m ((c.tc : Thread nD τ).loc main_arg1))) := by
  rw [W18_of_ne m ρ c main_v6 (by decide), KHost.S2.w17_v6, w12_v6]
theorem w18_v12 : W18 m ρ c (Proc.devRef .tc main_v12)
    = (K.dinv (K.dstOf (m ((c.tc : Thread nD τ).loc main_arg1)))) := by
  rw [W18_of_ne m ρ c main_v12 (by decide), KHost.S2.w17_v12, w12_v12]
theorem w18_arg2 : W18 m ρ c (Proc.devRef .tc main_arg2)
    = (m ((c.tc : Thread nD τ).loc main_arg2)) := by
  rw [W18_of_ne m ρ c main_arg2 (by decide), KHost.S2.w17_arg2, w12_arg2]
theorem w18_arg8 : W18 m ρ c (Proc.devRef .tc main_arg8)
    = (m ((c.tc : Thread nD τ).loc main_arg8)) := by
  rw [W18_of_ne m ρ c main_arg8 (by decide), KHost.S2.w17_arg8, w12_arg8]
theorem w18_arg9 : W18 m ρ c (Proc.devRef .tc main_arg9)
    = (m ((c.tc : Thread nD τ).loc main_arg9)) := by
  rw [W18_of_ne m ρ c main_arg9 (by decide), KHost.S2.w17_arg9, w12_arg9]
theorem w18_arg10 : W18 m ρ c (Proc.devRef .tc main_arg10)
    = (m ((c.tc : Thread nD τ).loc main_arg10)) := by
  rw [W18_of_ne m ρ c main_arg10 (by decide), KHost.S2.w17_arg10, w12_arg10]

/-! ## The result -/

/-- The result buffer at the last boundary is `K.result` of the arguments. -/
theorem kernel_result : W25 m ρ c (Proc.devRef .tc main_v105)
    = K.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [KHost.S3.w25_v105, w18_v64, w18_v3, w18_v6, w18_v12, w18_arg8, w18_arg2, w18_arg9, w18_arg10]
  rfl

end Cert.Gcn

end
-- ==== Proof.RefVal.lean ====
/-
  The reference program's result, as its run states it, is the function `R.result` of the arguments: the run's term is
  the same composition of operations, written out.
-/
import proofs.«427937_j30253749633693_4_alg».proof.Proof.Gen.ReferenceIdeal.Run
import proofs.«427937_j30253749633693_4_alg».proof.Proof.Whole

noncomputable section

namespace Cert.Gcn

open Idealize.ShloMosaic Idealize.ShloMosaic.TcCoe Idealize.SL.Sem Cert.ReferenceIdeal

set_option maxRecDepth 16384 in
set_option maxHeartbeats 4000000 in
/-- The run's result term is `R.result` of the launch contents of the arguments. -/
theorem ref_result (m : (ℓ : Loc nD τ sig) → Buf (Elt Ideal) ℓ) (c : Dev nD) :
    Cert.ReferenceIdeal.Value.res_main_v98 (F := Ideal) m c
      = R.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v98
  rfl

end Cert.Gcn

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.DegCount.lean ====
/-
  The two programs count the same in-degrees. The kernel adds the word 1 once per edge into a 32-bit word per node and
  converts the count to a float; the reference adds the float 1 per edge. An edge counts at node `d` when its destination
  word, read signed, is `d`; there are 1,700,000 edges, so a count never wraps, and the converted word is the real
  number of such edges, which is also the reference's sum. Every node's own self-loop counts, so each count is at least
  one and `deg^(-1/2)` is a non-negative real.

  The kernel's scatter is a left fold over the edges in order, each step adding an edge's word into the element its
  destination names. Word addition is associative and commutative, so at any element the fold leaves the word it
  started with plus the sum of the words of the edges that land there, whatever the order. With every update the word 1
  and the start the word 0 that sum has the number of such edges as its value, because the number is at most 1,700,000,
  below 2^31; so the word read signed is that number. The reference's float sum of ones over the same edges is the same
  number as an extended real.
-/
import proofs.«427937_j30253749633693_4_alg».proof.Proof.Spec
import proofs.«427937_j30253749633693_4_alg».proof.Proof.LibGatherScatter
import Idealize.ShloMosaic.Lib.WordSum
import Idealize.ShloMosaic.Lib.IdealHost
import Idealize.ShloMosaic.Lib.Pipeline.Value

noncomputable section

namespace Cert.Gcn

open Idealize.ShloMosaic Idealize.ShloMosaic.ValueIdx Idealize.ShloMosaic.GatherScatter
open scoped BigOperators

/-! ## An accumulating scatter of words, read at an element -/

section WordScatter
variable {s si u : Shape} {w wi : Nat}

/-- Folding the scatter's step over any list of update positions leaves, at element `i`, the word it started with plus
    the words of the listed updates that land on `i`: word addition is associative and commutative, so the order of the
    list does not matter. -/
theorem scatter_fold_addi (d : ScatterDims s si u) (idx : IVec si wi) (upd : u.Idx → BitVec w) (i : s.Idx) :
    ∀ (l : List (Fin u.numel)) (x : s.Idx → BitVec w),
      (l.foldl (fun r n =>
        match d.resultIdx? (u.rowMajor.symm n) idx with
        | some k => fun i' => if i' = k then IntOp.addi (r k) (upd (u.rowMajor.symm n)) else r i'
        | none => r) x) i
      = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hres : d.resultIdx? (u.rowMajor.symm n) idx with
    | none => simp
    | some k =>
      by_cases hik : i = k
      · subst hik; simp [IntOp.addi]
      · have hne : ¬ (some k = some i) := fun h => hik (Option.some.inj h).symm
        simp [hik, hne]

/-- An accumulating scatter of words at element `i`: the operand's word plus the sum of the updates that land on `i`. -/
theorem scatter_addi_apply (d : ScatterDims s si u) (x : s.Idx → BitVec w) (idx : IVec si wi) (upd : u.Idx → BitVec w)
    (i : s.Idx) :
    Host.scatter d IntOp.addi x idx upd i = x i + ∑ j : u.Idx, if d.resultIdx? j idx = some i then upd j else 0 := by
  refine (scatter_fold_addi d idx upd i (List.finRange u.numel) x).trans ?_
  rw [← Fin.sum_univ_def]
  exact congrArg _ (Equiv.sum_comp u.rowMajor.symm (fun j => if d.resultIdx? j idx = some i then upd j else 0))

end WordScatter

/-! ## The in-degree count -/

/-- The edges that count at node `a`: those whose destination word, read signed, is `a`. -/
def into (dst : IVec Cert.KernelIdeal.S1700000 32) (a : Fin 100000) : Finset (Fin 1700000) :=
  Finset.univ.filter fun j => (dst (ix1 j)).toInt = (a.val : Int)

/-- The column of index vectors holds edge `j`'s destination word in row `j` (the kernel's records). -/
theorem K_col_apply (dst : IVec Cert.KernelIdeal.S1700000 32) (j : Fin 1700000) : K.col dst (ix2 j 0) = dst (ix1 j) := by
  unfold K.col
  refine broadcastInDim_apply _ _ _ _ (ix1 j) fun a => ?_
  match a with
  | ⟨0, _⟩ => rfl

/-- The same over the reference's records. -/
theorem R_col_apply (dst : IVec Cert.KernelIdeal.S1700000 32) (j : Fin 1700000) : R.col dst (ix2 j 0) = dst (ix1 j) := by
  unfold R.col
  refine broadcastInDim_apply _ _ _ _ (ix1 j) fun a => ?_
  match a with
  | ⟨0, _⟩ => rfl

/-- The kernel's count at node `a` is the word sum of one `1` per edge that counts there. -/
theorem K_deg_apply (dst : IVec Cert.KernelIdeal.S1700000 32) (a : Fin 100000) :
    K.deg dst (ix1 a) = ∑ _j ∈ into dst a, (1#32 : BitVec 32) := by
  unfold K.deg
  rw [show Cert.KernelIdeal.scatter_S100000_S1700000x1_S1700000_n_0_0_1
        = vecScatterDims 100000 1700000 Cert.KernelIdeal.Facts₀.scatter_S100000_S1700000x1_S1700000_n_0_0_1_wf from rfl,
    scatter_addi_apply, broadcastInDim_scalar_apply, sum_idx1, into, Finset.sum_filter]
  refine (BitVec.zero_add _).trans ?_
  refine Finset.sum_congr rfl fun j _ => ?_
  rw [broadcastInDim_scalar_apply]
  exact if_congr ((vecScatter_resultIdx _ _ j a).trans (by rw [K_col_apply])) rfl rfl

/-- A count is at most the number of edges, so the word sum does not wrap and, read signed, is the number of edges
    that count at `a`. -/
theorem K_deg_toInt (dst : IVec Cert.KernelIdeal.S1700000 32) (a : Fin 100000) :
    (K.deg dst (ix1 a)).toInt = ((into dst a).card : Int) := by
  have hc : (into dst a).card ≤ 1700000 := by
    have := Finset.card_le_univ (into dst a)
    simpa using this
  have hs : ∑ _j ∈ into dst a, (1#32 : BitVec 32).toNat = (into dst a).card := by simp
  have hn : (K.deg dst (ix1 a)).toNat = (into dst a).card := by
    rw [K_deg_apply, WordSum.toNat_sum _ _ (by rw [hs]; omega), hs]
  rw [BitVec.toInt_eq_toNat_of_lt (by rw [hn]; omega), hn]

/-- `n` ones add up to `n` in the extended reals. -/
theorem ereal_nsmul_one (n : ℕ) : n • (1 : EReal) = (n : EReal) := by
  rw [← EReal.coe_one, ← EReal.coe_nsmul, nsmul_eq_mul, mul_one]
  rfl

/-- The reference's float sum at node `a` is the same number: one `1` per edge that counts there, from zero. -/
theorem R_deg_apply (dst : IVec Cert.KernelIdeal.S1700000 32) (a : Fin 100000) :
    R.deg dst (ix1 a) = ((into dst a).card : EReal) := by
  unfold R.deg
  rw [show Cert.ReferenceIdeal.scatter_S100000_S1700000x1_S1700000_n_0_0_1
        = vecScatterDims 100000 1700000 Cert.ReferenceIdeal.Facts₀.scatter_S100000_S1700000x1_S1700000_n_0_0_1_wf from rfl,
    vecScatterAdd_apply, broadcastInDim_scalar_apply, constant_apply, Ideal.ofBits_zero_f32, zero_add]
  have hF : (Finset.univ.filter fun j : Fin 1700000 => (R.col dst (ix2 j 0)).toInt = (a.val : Int)) = into dst a := by
    unfold into
    refine Finset.filter_congr fun j _ => ?_
    rw [R_col_apply]
  rw [hF, Finset.sum_congr rfl (fun j _ => by
      rw [broadcastInDim_scalar_apply, constant_apply, Ideal.ofBits_one_f32] : ∀ j ∈ into dst a, _ = (1 : EReal)),
    Finset.sum_const, ereal_nsmul_one]

/-- The kernel's converted word count is the reference's float count. -/
theorem deg_eq (dst : IVec Cert.KernelIdeal.S1700000 32) : sitofp (F := Ideal) .f32 (K.deg dst) = R.deg dst := by
  funext i
  obtain ⟨a, rfl⟩ : ∃ a : Fin 100000, i = ix1 a := ⟨i 0, eq_ix1 i⟩
  rw [R_deg_apply]
  show (((K.deg dst (ix1 a)).toInt : ℝ) : EReal) = _
  rw [K_deg_toInt, Int.cast_natCast]
  rfl

/-- So both sides scale by the same `deg^(-1/2)`. -/
theorem dinv_eq (dst : IVec Cert.KernelIdeal.S1700000 32) : K.dinv dst = R.dinv dst := by
  unfold K.dinv R.dinv
  rw [deg_eq]

/-! ## Every node's self-loop counts -/

/-- Past the 1,600,000 given edges the destinations are the nodes themselves, in order. -/
theorem dstOf_self (ei : IVec Cert.KernelIdeal.S2x1600000 32) (d : Fin 100000) :
    K.dstOf ei (ix1 ⟨1600000 + d.val, by have := d.isLt; omega⟩) = BitVec.ofNat 32 d.val := by
  unfold K.dstOf
  rw [concatenate_pair_apply_right (t := Cert.KernelIdeal.S1700000) (s₁ := Cert.KernelIdeal.S1600000)
    (s₂ := Cert.KernelIdeal.S100000) 0 _ _ _ _ rfl rfl (ix1 d)
    (fun b hb => absurd (Subsingleton.elim _ _) hb) (by show d.val + 1600000 = 1600000 + d.val; omega), iotaInDim_apply]

/-- Node `d`'s self-loop counts at `d`. -/
theorem self_mem_into (ei : IVec Cert.KernelIdeal.S2x1600000 32) (d : Fin 100000) :
    (⟨1600000 + d.val, by have := d.isLt; omega⟩ : Fin 1700000) ∈ into (K.dstOf ei) d := by
  have hd := d.isLt
  have hn : (BitVec.ofNat 32 d.val).toNat = d.val := by
    rw [BitVec.toNat_ofNat]
    exact Nat.mod_eq_of_lt (by omega)
  unfold into
  rw [Finset.mem_filter]
  refine ⟨Finset.mem_univ _, ?_⟩
  rw [dstOf_self, BitVec.toInt_eq_toNat_of_lt (by rw [hn]; omega), hn]

/-- The host's reciprocal square root, element by element. -/
theorem hostRsqrt_apply {s : Shape} (x : FVec Ideal s .f32) (i : s.Idx) : Host.rsqrt x i = Ideal.rsqrt (x i) := rfl

/-- With the self-loops in the edge list every node's `deg^(-1/2)` is a non-negative real. -/
theorem dinv_real (ei : IVec Cert.KernelIdeal.S2x1600000 32) (d : Fin 100000) :
    ∃ r : ℝ, 0 ≤ r ∧ R.dinv (K.dstOf ei) (ix1 d) = (r : EReal) := by
  have hpos : 0 < (into (K.dstOf ei) d).card := Finset.card_pos.mpr ⟨_, self_mem_into ei d⟩
  refine ⟨(Real.sqrt ((into (K.dstOf ei) d).card : ℝ))⁻¹, inv_nonneg.mpr (Real.sqrt_nonneg _), ?_⟩
  unfold R.dinv
  rw [hostRsqrt_apply, R_deg_apply, ← EReal.coe_natCast, Ideal.rsqrt_coe, if_neg (not_lt.mpr (Nat.cast_nonneg _)),
    if_neg (Nat.cast_ne_zero.mpr hpos.ne')]

end Cert.Gcn

end
-- ==== Proof.Layer.lean ====
/-
  One layer's neighbourhood sum, computed two ways.

  For a node `d` and a feature `o`, with `e` ranging over the edges whose destination word, read signed, is `d` and
  `s e` the edge's source read as array indexing reads it (wrapped if negative, then clamped into the node range):
  the kernel computes `(∑ e, p[s e, o]) · dinv[d]` and the reference `∑ e, q[s e, o] · (dinv[s e] · dinv[d])`. When
  `p[j, o] = q[j, o] · dinv[j]` these agree: the product is associative on the extended reals, and a non-negative
  real factor distributes over any sum of extended reals.

  Both sides are read at an index `(d, o)`. Each accumulating scatter starts from the zero array, so its element is the
  sum, over the edges whose destination word read signed is `d`, of the update rows' column `o`; the two programs'
  index columns and wraps are the same functions, so the two sums range over the same edges and gather at the same
  source row. For such an edge the destination word is non-negative, so the wrap leaves it, and clamping `d` into the
  node range gives `d` again: the reference's second factor of the edge weight is `dinv[d]`. The kernel's scale after
  the sum is pushed inside the sum (a non-negative real factor), and the summands agree edge by edge.
-/
import proofs.«427937_j30253749633693_4_alg».proof.Proof.Spec
import proofs.«427937_j30253749633693_4_alg».proof.Proof.LibGatherScatter
import Idealize.ShloMosaic.Lib.IdealHost
import Idealize.ShloMosaic.Lib.Pipeline.Value
import Mathlib.Data.EReal.Operations

noncomputable section

namespace Cert.Gcn

open Idealize.ShloMosaic Idealize.ShloMosaic.ValueIdx Idealize.ShloMosaic.GatherScatter

/-- A non-negative real factor distributes over a finite sum of extended reals. -/
theorem agg_sum_mul_coe {ι : Type} (s : Finset ι) (t : ι → EReal) {r : ℝ} (hr : 0 ≤ r) :
    (∑ e ∈ s, t e) * (r : EReal) = ∑ e ∈ s, t e * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A word whose signed value is non-negative is not below the zero word, so the wrap keeps it. -/
theorem agg_select_slt_zero_of_nonneg (v a : BitVec 32) (h : 0 ≤ v.toInt) :
    Scalar.select (IntOp.cmpi .slt v 0#32) a v = v := by
  have hs : v.slt 0#32 = false := by
    simp only [BitVec.slt, BitVec.toInt_zero, decide_eq_false_iff_not, not_lt]
    exact h
  simp only [IntOp.cmpi, hs, Scalar.select]
  rfl

/-- The wrap at an edge. -/
theorem agg_wrap_apply (v : IVec Cert.KernelIdeal.S1700000 32) (e : Fin 1700000) :
    K.wrap v (ix1 e) = Scalar.select (IntOp.cmpi .slt (v (ix1 e)) 0#32) (IntOp.addi (v (ix1 e)) 100000#32) (v (ix1 e)) := rfl

/-- A vector of words read as a column. -/
theorem agg_col_apply (v : IVec Cert.KernelIdeal.S1700000 32) (e : Fin 1700000) :
    K.col v (ix2 e 0) = v (ix1 e) := by
  unfold K.col
  refine broadcastInDim_apply _ _ v (ix2 e 0) (ix1 e) ?_
  intro a
  match a with
  | ⟨0, _⟩ =>
    show e.val = if (1700000 : ℕ) = 1 then 0 else e.val
    rw [if_neg (by decide)]

/-- A vector broadcast to a column and then along rows, read at (j, g), is the vector at j. -/
theorem agg_bcast_col_apply {α : Type} {n c : Nat} (hn : n ≠ 1) (h1 : (⟨1, ![n]⟩ : Shape).BroadcastsInDim ⟨2, ![n, 1]⟩ ![0])
    (h2 : (⟨2, ![n, 1]⟩ : Shape).BroadcastsInDim ⟨2, ![n, c]⟩ ![0, 1]) (x : (⟨1, ![n]⟩ : Shape).Idx → α) (j : Fin n)
    (g : Fin c) :
    broadcastInDim ⟨2, ![n, c]⟩ ![0, 1] h2 (broadcastInDim ⟨2, ![n, 1]⟩ ![0] h1 x) (ix2 j g) = x (ix1 j) := by
  refine (broadcastInDim_apply ![0, 1] h2 _ (ix2 j g) (ix2 j (0 : Fin 1)) ?_).trans
    (broadcastInDim_apply ![0] h1 x (ix2 j (0 : Fin 1)) (ix1 j) ?_)
  · intro a
    match a with
    | ⟨0, _⟩ =>
      show j.val = if n = 1 then 0 else j.val
      rw [if_neg hn]
    | ⟨1, _⟩ =>
      show (0 : ℕ) = if (1 : ℕ) = 1 then 0 else g.val
      rw [if_pos rfl]
  · intro a
    match a with
    | ⟨0, _⟩ =>
      show j.val = if n = 1 then 0 else j.val
      rw [if_neg hn]

/-- The kernel's accumulate-then-scale is the reference's scale-then-accumulate. -/
theorem agg_eq (src dst : IVec Cert.KernelIdeal.S1700000 32) (dinv : FVec Ideal Cert.KernelIdeal.S100000 .f32)
    (p q : FVec Ideal Cert.KernelIdeal.S100000x32 .f32)
    (hd : ∀ d : Fin 100000, ∃ r : ℝ, 0 ≤ r ∧ dinv (ix1 d) = (r : EReal))
    (hpq : ∀ (j : Fin 100000) (o : Fin 32), p (ix2 j o) = q (ix2 j o) * dinv (ix1 j)) :
    K.agg p src dst dinv = R.agg q src dst dinv := by
  funext i
  obtain ⟨d, o, rfl⟩ : ∃ (d : Fin 100000) (o : Fin 32), i = ix2 d o := ⟨i 0, i 1, eq_ix2 i⟩
  have hKs : Cert.KernelIdeal.scatter_S100000x32_S1700000x1_S1700000x32_1_0_0_1
      = rowScatterDims 100000 32 1700000 Cert.KernelIdeal.Facts₀.scatter_S100000x32_S1700000x1_S1700000x32_1_0_0_1_wf := rfl
  have hKg : Cert.KernelIdeal.gather_S100000x32_S1700000x1_S1700000x32_1_0_n_n_0_1_132
      = rowGatherDims 100000 32 1700000 Cert.KernelIdeal.Facts₀.gather_S100000x32_S1700000x1_S1700000x32_1_0_n_n_0_1_132_wf := rfl
  have hRs : Cert.ReferenceIdeal.scatter_S100000x32_S1700000x1_S1700000x32_1_0_0_1
      = rowScatterDims 100000 32 1700000 Cert.ReferenceIdeal.Facts₀.scatter_S100000x32_S1700000x1_S1700000x32_1_0_0_1_wf := rfl
  have hRg : Cert.ReferenceIdeal.gather_S100000x32_S1700000x1_S1700000x32_1_0_n_n_0_1_132
      = rowGatherDims 100000 32 1700000 Cert.ReferenceIdeal.Facts₀.gather_S100000x32_S1700000x1_S1700000x32_1_0_n_n_0_1_132_wf := rfl
  have hRv : Cert.ReferenceIdeal.gather_S100000_S1700000x1_S1700000_n_0_n_n_0_1_1
      = vecGatherDims 100000 1700000 Cert.ReferenceIdeal.Facts₀.gather_S100000_S1700000x1_S1700000_n_0_n_n_0_1_1_wf := rfl
  have hcol : (R.col : IVec Cert.KernelIdeal.S1700000 32 → IVec Cert.KernelIdeal.S1700000x1 32) = K.col := rfl
  have hwrap : (R.wrap : IVec Cert.KernelIdeal.S1700000 32 → IVec Cert.KernelIdeal.S1700000 32) = K.wrap := rfl
  obtain ⟨r, hr0, hr⟩ := hd d
  unfold K.agg R.agg R.norm
  rw [mulf_apply, hKs, hKg, hRs, hRg, hRv, rowScatterAdd_apply, rowScatterAdd_apply, hcol, hwrap,
    broadcastInDim_scalar_apply, constant_apply, Ideal.ofBits_zero_f32,
    zero_add, zero_add, agg_bcast_col_apply (by decide), hr, agg_sum_mul_coe _ _ hr0]
  refine Finset.sum_congr rfl fun e he => ?_
  have he' : (dst (ix1 e)).toInt = (d.val : Int) := by
    have h := (Finset.mem_filter.mp he).2
    rwa [agg_col_apply] at h
  have hD : ∀ (h : min (K.col (K.wrap dst) (ix2 e 0)).toInt.toNat (100000 - 1) < 100000),
      (⟨min (K.col (K.wrap dst) (ix2 e 0)).toInt.toNat (100000 - 1), h⟩ : Fin 100000) = d := by
    intro h
    apply Fin.ext
    show min (K.col (K.wrap dst) (ix2 e 0)).toInt.toNat (100000 - 1) = d.val
    rw [agg_col_apply, agg_wrap_apply, agg_select_slt_zero_of_nonneg _ _ (by rw [he']; omega), he']
    have := d.isLt
    omega
  rw [mulf_apply, rowGather_apply (by decide), rowGather_apply (by decide), agg_bcast_col_apply (by decide), mulf_apply,
    vecGather_apply (by decide), vecGather_apply (by decide), hD, hpq, hr, mul_assoc]

end Cert.Gcn

end
-- ==== Proof.Layout.lean ====
/-
  The kernel's layout steps around the dense transform, read entry by entry.

  The features go in transposed with their node columns padded by zeros to 102,400, the weight goes in transposed, and
  `dinv` goes in as one padded row; the first 100,000 columns of the result are transposed back. So row `j`, feature `o`
  of what comes back is `(∑ c, w[c, o] · h[j, c]) · dinv[j]`: the reference's `h · w` at `(j, o)` scaled by `dinv[j]`.
  Padding a transposed array and cutting the padding off again is the identity.

  Each layout step is first read at one index given by its coordinates: the cut-and-transpose-back at `(j, o)` reads its
  operand at `(o, j)`; a padded transposed array at `(c, j)` with `j < 100000` reads the array at `(j, c)` (the padding
  only adds columns 100,000 … 102,399); the padded row at `(0, j)` reads `dinv[j]`; a transposed weight at `(o, c)` reads
  the weight at `(c, o)`. The reference's product at `(j, o)` is the sum over the one contracted axis,
  `∑ c, h[j, c] · w[c, o]`, once the contraction index is identified with its one coordinate. The two sums then agree
  term by term, up to the order of the two factors.
-/
import proofs.«427937_j30253749633693_4_alg».proof.Proof.Spec
import Idealize.ShloMosaic.Lib.Pipeline.Value
import Idealize.ShloMosaic.Lib.ValueLayout
import Idealize.ShloMosaic.Lib.KernelVsHost
import Idealize.ShloMosaic.PureOps.Ideal.Laws

noncomputable section

namespace Cert.Gcn

open Idealize.ShloMosaic Idealize.ShloMosaic.ValueIdx

/-! ## The kernel's layout steps at an index -/

namespace K
open Cert.KernelIdeal Cert.KernelIdeal.Facts₀ Cert.KernelIdeal.Facts

/-- Node `j` as a column of the padded arrays. -/
abbrev colOf (j : Fin 100000) : Fin 102400 := ⟨j.val, Nat.lt_trans j.isLt (by decide)⟩

/-- The columns cut back and transposed: entry `(j, o)` is the operand's entry `(o, j)`. -/
theorem unT_apply (r : FVec Ideal S32x102400 .f32) (j : Fin 100000) (o : Fin 32) :
    unT r (ix2 j o) = r (ix2 o (colOf j)) := by
  unfold unT
  refine (transpose_ix2_apply _ _ j o).trans ?_
  exact slice2_axis1_apply 0 r _ o j (colOf j) (Nat.zero_add _).symm

/-- The transposed first-layer weight at `(o, c)` is the weight at `(c, o)`. -/
theorem wT128_apply (w : FVec Ideal S128x32 .f32) (o : Fin 32) (c : Fin 128) : wT128 w (ix2 o c) = w (ix2 c o) := by
  unfold wT128
  exact transpose_ix2_apply _ _ o c

/-- The transposed later-layer weight at `(o, c)` is the weight at `(c, o)`. -/
theorem wT32_apply (w : FVec Ideal S32x32 .f32) (o : Fin 32) (c : Fin 32) : wT32 w (ix2 o c) = w (ix2 c o) := by
  unfold wT32
  exact transpose_ix2_apply _ _ o c

/-- The padded transposed input features at `(c, j)`, `j` a node's column, are the features at `(j, c)`. -/
theorem padT128_apply (x : FVec Ideal S100000x128 .f32) (c : Fin 128) (j : Fin 100000) :
    padT128 x (ix2 c (colOf j)) = x (ix2 j c) := by
  unfold padT128
  refine (pad_apply_of_inside _ _ _ _ _ _ _ _ (ix2 c j) (fun a => ?_)).trans (transpose_ix2_apply _ _ c j)
  match a with
  | ⟨0, _⟩ => show c.val = 0 + c.val * (0 + 1); omega
  | ⟨1, _⟩ => show j.val = 0 + j.val * (0 + 1); omega

/-- The padded transposed hidden features at `(c, j)`, `j` a node's column, are the features at `(j, c)`. -/
theorem padT32_apply (h : FVec Ideal S100000x32 .f32) (c : Fin 32) (j : Fin 100000) :
    padT32 h (ix2 c (colOf j)) = h (ix2 j c) := by
  unfold padT32
  refine (pad_apply_of_inside _ _ _ _ _ _ _ _ (ix2 c j) (fun a => ?_)).trans (transpose_ix2_apply _ _ c j)
  match a with
  | ⟨0, _⟩ => show c.val = 0 + c.val * (0 + 1); omega
  | ⟨1, _⟩ => show j.val = 0 + j.val * (0 + 1); omega

/-- The padded scale row at a node's column is the node's `dinv`. -/
theorem dinvRow_apply (dinv : FVec Ideal S100000 .f32) (j : Fin 100000) :
    dinvRow dinv (ix2 (0 : Fin 1) (colOf j)) = dinv (ix1 j) := by
  unfold dinvRow
  refine (pad_apply_of_inside _ _ _ _ _ _ _ _ (ix2 (0 : Fin 1) j) (fun a => ?_)).trans (shapeCast_a_1a_apply _ _ 0 j)
  match a with
  | ⟨0, _⟩ => show (0 : Fin 1).val = 0 + (0 : Fin 1).val * (0 + 1); rfl
  | ⟨1, _⟩ => show j.val = 0 + j.val * (0 + 1); omega

end K

/-! ## The reference's products at an index -/

namespace R
open Cert.ReferenceIdeal Cert.ReferenceIdeal.Facts₀ Cert.ReferenceIdeal.Facts

/-- The 128-row product's left operand is read at the result's row … -/
theorem lhs128_0 (i : S100000x32.Idx) (q : dot_S100000x128_S128x32_S100000x32_1_0_0_1_n_n.contr.Idx) :
    (dot_S100000x128_S128x32_S100000x32_1_0_0_1_n_n.lhsIdx i q 0).val = (i 0).val := by
  unfold DotDims.lhsIdx
  rw [dif_neg (show ¬(0 : Fin S100000x128.rank) ∈ dot_S100000x128_S128x32_S100000x32_1_0_0_1_n_n.lhsBatch by decide), dif_pos (show (0 : Fin S100000x128.rank) ∈ dot_S100000x128_S128x32_S100000x32_1_0_0_1_n_n.lhsNonContracting by decide)]
  rfl
/-- … and at the contracted coordinate; -/
theorem lhs128_1 (i : S100000x32.Idx) (q : dot_S100000x128_S128x32_S100000x32_1_0_0_1_n_n.contr.Idx) :
    (dot_S100000x128_S128x32_S100000x32_1_0_0_1_n_n.lhsIdx i q 1).val = (q ⟨0, by decide⟩).val :=
  dot_S100000x128_S128x32_S100000x32_1_0_0_1_n_n.lhsIdx_val_of_single rfl i q
/-- its right operand at the contracted coordinate … -/
theorem rhs128_0 (i : S100000x32.Idx) (q : dot_S100000x128_S128x32_S100000x32_1_0_0_1_n_n.contr.Idx) :
    (dot_S100000x128_S128x32_S100000x32_1_0_0_1_n_n.rhsIdx i q 0).val = (q ⟨0, by decide⟩).val :=
  dot_S100000x128_S128x32_S100000x32_1_0_0_1_n_n.rhsIdx_val_of_single rfl i q
/-- … and at the result's column. -/
theorem rhs128_1 (i : S100000x32.Idx) (q : dot_S100000x128_S128x32_S100000x32_1_0_0_1_n_n.contr.Idx) :
    (dot_S100000x128_S128x32_S100000x32_1_0_0_1_n_n.rhsIdx i q 1).val = (i 1).val := by
  unfold DotDims.rhsIdx
  rw [dif_neg (show ¬(1 : Fin S128x32.rank) ∈ dot_S100000x128_S128x32_S100000x32_1_0_0_1_n_n.rhsBatch by decide), dif_pos (show (1 : Fin S128x32.rank) ∈ dot_S100000x128_S128x32_S100000x32_1_0_0_1_n_n.rhsNonContracting by decide)]
  rfl

/-- Features times the 128-row weight at `(j, o)`: `∑ c, x[j, c] · w[c, o]`. -/
theorem dot128_apply (x : FVec Ideal S100000x128 .f32) (w : FVec Ideal S128x32 .f32) (j : Fin 100000) (o : Fin 32) :
    dot128 x w (ix2 j o) = ∑ c : Fin 128, x (ix2 j c) * w (ix2 c o) := by
  unfold dot128
  simp only [Host.dotGeneral]
  rw [Ideal.dotGeneral_apply, ← Equiv.sum_comp (contrEquiv1 dot_S100000x128_S128x32_S100000x32_1_0_0_1_n_n 128 rfl rfl).symm]
  refine Finset.sum_congr rfl fun c _ => ?_
  have hc := contrEquiv1_symm_val dot_S100000x128_S128x32_S100000x32_1_0_0_1_n_n 128 rfl rfl c
  have el : dot_S100000x128_S128x32_S100000x32_1_0_0_1_n_n.lhsIdx (ix2 j o) ((contrEquiv1 dot_S100000x128_S128x32_S100000x32_1_0_0_1_n_n 128 rfl rfl).symm c) = ix2 j c := funext fun a => Fin.ext (by
    match a with
    | ⟨0, _⟩ => exact lhs128_0 _ _
    | ⟨1, _⟩ => exact (lhs128_1 _ _).trans hc)
  have er : dot_S100000x128_S128x32_S100000x32_1_0_0_1_n_n.rhsIdx (ix2 j o) ((contrEquiv1 dot_S100000x128_S128x32_S100000x32_1_0_0_1_n_n 128 rfl rfl).symm c) = ix2 c o := funext fun a => Fin.ext (by
    match a with
    | ⟨0, _⟩ => exact (rhs128_0 _ _).trans hc
    | ⟨1, _⟩ => exact rhs128_1 _ _)
  rw [el, er]

/-- The 32-row product's left operand is read at the result's row … -/
theorem lhs32_0 (i : S100000x32.Idx) (q : dot_S100000x32_S32x32_S100000x32_1_0_0_1_n_n.contr.Idx) :
    (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch by decide), dif_pos (show (0 : Fin S100000x32.rank) ∈ dot_S100000x32_S32x32_S100000x32_1_0_0_1_n_n.lhsNonContracting by decide)]
  rfl
/-- … and at the contracted coordinate; -/
theorem lhs32_1 (i : S100000x32.Idx) (q : dot_S100000x32_S32x32_S100000x32_1_0_0_1_n_n.contr.Idx) :
    (dot_S100000x32_S32x32_S100000x32_1_0_0_1_n_n.lhsIdx i q 1).val = (q ⟨0, by decide⟩).val :=
  dot_S100000x32_S32x32_S100000x32_1_0_0_1_n_n.lhsIdx_val_of_single rfl i q
/-- its right operand at the contracted coordinate … -/
theorem rhs32_0 (i : S100000x32.Idx) (q : dot_S100000x32_S32x32_S100000x32_1_0_0_1_n_n.contr.Idx) :
    (dot_S100000x32_S32x32_S100000x32_1_0_0_1_n_n.rhsIdx i q 0).val = (q ⟨0, by decide⟩).val :=
  dot_S100000x32_S32x32_S100000x32_1_0_0_1_n_n.rhsIdx_val_of_single rfl i q
/-- … and at the result's column. -/
theorem rhs32_1 (i : S100000x32.Idx) (q : dot_S100000x32_S32x32_S100000x32_1_0_0_1_n_n.contr.Idx) :
    (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch by decide), dif_pos (show (1 : Fin S32x32.rank) ∈ dot_S100000x32_S32x32_S100000x32_1_0_0_1_n_n.rhsNonContracting by decide)]
  rfl

/-- Features times a 32-row weight at `(j, o)`: `∑ c, h[j, c] · w[c, o]`. -/
theorem dot32_apply (h : FVec Ideal S100000x32 .f32) (w : FVec Ideal S32x32 .f32) (j : Fin 100000) (o : Fin 32) :
    dot32 h w (ix2 j o) = ∑ c : Fin 32, h (ix2 j c) * w (ix2 c o) := by
  unfold dot32
  simp only [Host.dotGeneral]
  rw [Ideal.dotGeneral_apply, ← Equiv.sum_comp (contrEquiv1 dot_S100000x32_S32x32_S100000x32_1_0_0_1_n_n 32 rfl rfl).symm]
  refine Finset.sum_congr rfl fun c _ => ?_
  have hc := contrEquiv1_symm_val dot_S100000x32_S32x32_S100000x32_1_0_0_1_n_n 32 rfl rfl c
  have el : dot_S100000x32_S32x32_S100000x32_1_0_0_1_n_n.lhsIdx (ix2 j o) ((contrEquiv1 dot_S100000x32_S32x32_S100000x32_1_0_0_1_n_n 32 rfl rfl).symm c) = ix2 j c := funext fun a => Fin.ext (by
    match a with
    | ⟨0, _⟩ => exact lhs32_0 _ _
    | ⟨1, _⟩ => exact (lhs32_1 _ _).trans hc)
  have er : dot_S100000x32_S32x32_S100000x32_1_0_0_1_n_n.rhsIdx (ix2 j o) ((contrEquiv1 dot_S100000x32_S32x32_S100000x32_1_0_0_1_n_n 32 rfl rfl).symm c) = ix2 c o := funext fun a => Fin.ext (by
    match a with
    | ⟨0, _⟩ => exact (rhs32_0 _ _).trans hc
    | ⟨1, _⟩ => exact rhs32_1 _ _)
  rw [el, er]

end R

/-! ## The dense transform read back per node -/

/-- The first layer's transform, read back per node: the reference's product scaled by the node's `dinv`. -/
theorem unT_dense128 (x : FVec Ideal Cert.KernelIdeal.S100000x128 .f32) (w : FVec Ideal Cert.KernelIdeal.S128x32 .f32)
    (dinv : FVec Ideal Cert.KernelIdeal.S100000 .f32) (j : Fin 100000) (o : Fin 32) :
    K.unT (denseT (k := 128) (K.padT128 x) (K.wT128 w) (K.dinvRow dinv)) (ix2 j o) = R.dot128 x w (ix2 j o) * dinv (ix1 j) := by
  rw [K.unT_apply, denseT_apply, K.dinvRow_apply, R.dot128_apply]
  refine congrArg (· * dinv (ix1 j)) (Finset.sum_congr rfl fun c _ => ?_)
  rw [K.wT128_apply, K.padT128_apply, mul_comm]

/-- A later layer's transform, read back per node. -/
theorem unT_dense32 (h : FVec Ideal Cert.KernelIdeal.S100000x32 .f32) (w : FVec Ideal Cert.KernelIdeal.S32x32 .f32)
    (dinv : FVec Ideal Cert.KernelIdeal.S100000 .f32) (j : Fin 100000) (o : Fin 32) :
    K.unT (denseT (k := 32) (K.padT32 h) (K.wT32 w) (K.dinvRow dinv)) (ix2 j o) = R.dot32 h w (ix2 j o) * dinv (ix1 j) := by
  rw [K.unT_apply, denseT_apply, K.dinvRow_apply, R.dot32_apply]
  refine congrArg (· * dinv (ix1 j)) (Finset.sum_congr rfl fun c _ => ?_)
  rw [K.wT32_apply, K.padT32_apply, mul_comm]

/-- Transposing, padding, cutting the padding off and transposing back changes nothing. -/
theorem unT_padT32 (h : FVec Ideal Cert.KernelIdeal.S100000x32 .f32) : K.unT (K.padT32 h) = h := by
  funext i
  obtain ⟨p, q, rfl⟩ : ∃ (p : Fin 100000) (q : Fin 32), i = ix2 p q := ⟨i 0, i 1, eq_ix2 i⟩
  rw [K.unT_apply, K.padT32_apply]

end Cert.Gcn

end
-- ==== Proof.Equal.lean ====
/-
  The two programs compute the same function of their arguments.

  Layer by layer: the kernel's dense transform, read back per node, is the reference's product `h · w` with row `j` scaled
  by `dinv[j]`; gathering, accumulating and scaling by the destination's `dinv` is then the reference's accumulation of
  rows scaled by `dinv[src] · dinv[dst]` (`dinv` is a non-negative real at every node, every node having its self-loop),
  and the bias and rectifier are the same. Both count the same degrees, so both use the same `dinv`. After the third
  layer the kernel's extra transpose, pad, cut and transpose is the identity, and the tails are one text.
-/
import proofs.«427937_j30253749633693_4_alg».proof.Proof.Whole
import proofs.«427937_j30253749633693_4_alg».proof.Proof.DegCount
import proofs.«427937_j30253749633693_4_alg».proof.Proof.Layer
import proofs.«427937_j30253749633693_4_alg».proof.Proof.Layout

noncomputable section

namespace Cert.Gcn

open Idealize.ShloMosaic Idealize.ShloMosaic.ValueIdx
open Cert.KernelIdeal

variable (ei : IVec S2x1600000 32)

/-- Every node's `deg^(-1/2)`, as the kernel computes it, is a non-negative real. -/
theorem kdinv_real (d : Fin 100000) : ∃ r : ℝ, 0 ≤ r ∧ K.dinv (K.dstOf ei) (ix1 d) = (r : EReal) := by
  rw [dinv_eq]; exact dinv_real ei d

/-- The first layer: the kernel's features are the reference's. -/
theorem layer128_eq (x : FVec Ideal S100000x128 .f32) (w : FVec Ideal S128x32 .f32) (b : FVec Ideal S32 .f32) :
    K.layerOut (denseT (k := 128) (K.padT128 x) (K.wT128 w) (K.dinvRow (K.dinv (K.dstOf ei)))) (K.srcOf ei) (K.dstOf ei)
        (K.dinv (K.dstOf ei)) b
      = R.biasRelu (R.agg (R.dot128 x w) (K.srcOf ei) (K.dstOf ei) (K.dinv (K.dstOf ei))) b := by
  unfold K.layerOut
  rw [agg_eq (K.srcOf ei) (K.dstOf ei) (K.dinv (K.dstOf ei)) _ (R.dot128 x w) (kdinv_real ei)
    (fun j o => unT_dense128 x w (K.dinv (K.dstOf ei)) j o)]
  rfl

/-- A later layer: the same. -/
theorem layer32_eq (h : FVec Ideal S100000x32 .f32) (w : FVec Ideal S32x32 .f32) (b : FVec Ideal S32 .f32) :
    K.layerOut (denseT (k := 32) (K.padT32 h) (K.wT32 w) (K.dinvRow (K.dinv (K.dstOf ei)))) (K.srcOf ei) (K.dstOf ei)
        (K.dinv (K.dstOf ei)) b
      = R.biasRelu (R.agg (R.dot32 h w) (K.srcOf ei) (K.dstOf ei) (K.dinv (K.dstOf ei))) b := by
  unfold K.layerOut
  rw [agg_eq (K.srcOf ei) (K.dstOf ei) (K.dinv (K.dstOf ei)) _ (R.dot32 h w) (kdinv_real ei)
    (fun j o => unT_dense32 h w (K.dinv (K.dstOf ei)) j o)]
  rfl

/-- The kernel's result is the reference's. -/
theorem result_eq (x : FVec Ideal S100000x128 .f32) (batch : IVec S100000 32)
    (w0 : FVec Ideal S128x32 .f32) (b0 : FVec Ideal S32 .f32) (w1 : FVec Ideal S32x32 .f32) (b1 : FVec Ideal S32 .f32)
    (w2 : FVec Ideal S32x32 .f32) (b2 : FVec Ideal S32 .f32) (wl : FVec Ideal S32x10 .f32) (bl : FVec Ideal S10 .f32) :
    K.result x ei batch w0 b0 w1 b1 w2 b2 wl bl = R.result x ei batch w0 b0 w1 b1 w2 b2 wl bl := by
  unfold K.result R.result
  dsimp only
  rw [layer128_eq, layer32_eq, layer32_eq, unT_padT32, dinv_eq]
  rfl

end Cert.Gcn

end
-- ==== Proof.lean ====
/-
  A three-layer graph convolution with mean pooling and a log-softmax head: the kernel program against its reference.

  Both programs append a self-loop per node to the edge list, count in-degrees, and scale by `deg^(-1/2)` on both ends of
  every edge. The kernel folds the source-side factor into its dense transform (three regions, each a transposed
  matrix product over node columns padded to 102,400, times a padded row of `deg^(-1/2)`) and applies the
  destination-side factor after accumulating; the reference multiplies each gathered row by the product of the two
  factors before accumulating. Over the extended reals the two agree because the product is associative and because a
  non-negative REAL factor distributes over any sum, and `deg^(-1/2)` is such a factor at every node: each node's own
  self-loop makes its degree at least one. The kernel counts degrees in 32-bit words (at most 1,700,000 edges, so no
  wrap) and converts; the reference adds float ones: the same real numbers. No finiteness of the inputs is used.

  The frames of the two kernel programs are the generated ones; the reference's is its generated run with the result
  dropped; the idealization rewrote nothing, so there is nothing to preserve. For the value claim the kernel program's
  run is taken with its result buffer named (`GenRun.run`), read back to the arguments (`Gcn.kernel_result`), and set
  against the reference run's term (`Gcn.ref_result`, `Gcn.result_eq`).
-/
import proofs.«427937_j30253749633693_4_alg».proof.Defs
import proofs.«427937_j30253749633693_4_alg».proof.Proof.Gen.Kernel
import proofs.«427937_j30253749633693_4_alg».proof.Proof.Gen.Kernel.Skeleton
import proofs.«427937_j30253749633693_4_alg».proof.Proof.Gen.Kernel.Launch
import proofs.«427937_j30253749633693_4_alg».proof.Proof.Gen.Kernel.Points
import proofs.«427937_j30253749633693_4_alg».proof.Proof.Gen.Kernel.Frame
import proofs.«427937_j30253749633693_4_alg».proof.Proof.Gen.KernelIdeal
import proofs.«427937_j30253749633693_4_alg».proof.Proof.Gen.KernelIdeal.Skeleton
import proofs.«427937_j30253749633693_4_alg».proof.Proof.Gen.KernelIdeal.Launch
import proofs.«427937_j30253749633693_4_alg».proof.Proof.Gen.KernelIdeal.Points
import proofs.«427937_j30253749633693_4_alg».proof.Proof.Gen.KernelIdeal.Frame
import proofs.«427937_j30253749633693_4_alg».proof.Proof.Gen.ReferenceIdeal
import proofs.«427937_j30253749633693_4_alg».proof.Proof.Gen.Pre_finite_inputs
import proofs.«427937_j30253749633693_4_alg».proof.Proof.Gen.ReferenceIdeal.Run
import proofs.«427937_j30253749633693_4_alg».proof.Proof.KRun
import proofs.«427937_j30253749633693_4_alg».proof.Proof.KVal
import proofs.«427937_j30253749633693_4_alg».proof.Proof.RefVal
import proofs.«427937_j30253749633693_4_alg».proof.Proof.Equal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same result: `K.result` of the arguments on the kernel's side, `R.result` of the
    same arguments on the reference's, and the two are one function. -/
theorem algebraic : Cert.algebraic_KernelIdeal_ReferenceIdeal := by
  intro m ρ m' ρ' _ hagree
  refine ⟨fun c => Cert.Gcn.K.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.kernel_result m ρ c), (h c).2⟩) (Cert.KernelIdeal.GenRun.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.Gcn.ref_result, h0, h1, h2, h3, h4, h5, h6, h7, h8, h9, h10]
    exact (Cert.Gcn.result_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
